-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S32x128 : Shape := ⟨2, ![32, 128]⟩
abbrev S32 : Shape := ⟨1, ![32]⟩
abbrev S22x16 : Shape := ⟨2, ![22, 16]⟩
abbrev S96x16 : Shape := ⟨2, ![96, 16]⟩
abbrev S16x64 : Shape := ⟨2, ![16, 64]⟩
abbrev S16 : Shape := ⟨1, ![16]⟩
abbrev S32x16 : Shape := ⟨2, ![32, 16]⟩
abbrev S1x32 : Shape := ⟨2, ![1, 32]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S22x16 : S_.BroadcastsInDim S22x16 (![] : Fin 0 → Fin S22x16.rank)
  reducesTo_S22x16_S_d0_1 : S22x16.ReducesTo [0, 1] S_
  bcast_S_S96x16 : S_.BroadcastsInDim S96x16 (![] : Fin 0 → Fin S96x16.rank)
  reducesTo_S96x16_S_d0_1 : S96x16.ReducesTo [0, 1] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S32x16 : S_.BroadcastsInDim S32x16 (![] : Fin 0 → Fin S32x16.rank)
  reducesTo_S32x16_S_d0_1 : S32x16.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1x32 .f32) (main_arg15 : FVec F S1 .f32) (main_v48 : IVec S_ 1) (main_v49 : FVec F S32x16 .f32) (main_v50 : FVec F S32x16 .f32) : IVec S_ 1 :=
  let main_v51 : IVec S32x16 1 := cmpf .olt main_v49 main_v50
  let main_c_19 : IVec S_ 1 := constantI S_ 1 1#1
  let main_v52 : IVec S_ 1 := (fun x v => Host.reduce IntOp.andi x v reducesTo_S32x16_S_d0_1 h_S_) main_v51 main_c_19
  let main_v53 : IVec S_ 1 := andi main_v48 main_v52
  let main_v54 : FVec F S1x32 .f32 := Host.absf main_arg14
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S16x64 .f32) (main_arg11 : FVec F S32x16 .f32) (main_arg12 : FVec F S32 .f32) (main_arg13 : FVec F S32x16 .f32) (main_arg14 : FVec F S1x32 .f32) (main_arg15 : FVec F S1 .f32) (main_v33 : IVec S_ 1) : IVec S_ 1 :=
  let main_v34 : FVec F S16x64 .f32 := Host.absf main_arg10
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S32x16 .f32 := Host.absf main_arg11
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S32 .f32 := Host.absf main_arg12
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x16 .f32 := Host.absf main_arg13
  let main_cst_18 : FVec F S_ .f32 := constant S_ .f32 0x7F800000#32
  let main_v50 : FVec F S32x16 .f32 := broadcastInDim S32x16 ![] bcast_S_S32x16 main_cst_18
  fn_part3 (F := F) main_arg14 main_arg15 main_v48 main_v49 main_v50

def fn_part1 {F : FTy → Type} [FloatOps F] (main_arg7 : FVec F S96x16 .f32) (main_arg8 : FVec F S16x64 .f32) (main_arg9 : FVec F S16 .f32) (main_arg10 : FVec F S16x64 .f32) (main_arg11 : FVec F S32x16 .f32) (main_arg12 : FVec F S32 .f32) (main_arg13 : FVec F S32x16 .f32) (main_arg14 : FVec F S1x32 .f32) (main_arg15 : FVec F S1 .f32) (main_v13 : IVec S_ 1) (main_v16 : IVec S22x16 1) : IVec S_ 1 :=
  let main_c_5 : IVec S_ 1 := constantI S_ 1 1#1
  let main_v17 : IVec S_ 1 := (fun x v => Host.reduce IntOp.andi x v reducesTo_S22x16_S_d0_1 h_S_) main_v16 main_c_5
  let main_v18 : IVec S_ 1 := andi main_v13 main_v17
  let main_v19 : FVec F S96x16 .f32 := Host.absf main_arg7
  let main_cst_6 : FVec F S_ .f32 := constant S_ .f32 0x7F800000#32
  let main_v20 : FVec F S96x16 .f32 := broadcastInDim S96x16 ![] bcast_S_S96x16 main_cst_6
  let main_v21 : IVec S96x16 1 := cmpf .olt main_v19 main_v20
  let main_c_7 : IVec S_ 1 := constantI S_ 1 1#1
  let main_v22 : IVec S_ 1 := (fun x v => Host.reduce IntOp.andi x v reducesTo_S96x16_S_d0_1 h_S_) main_v21 main_c_7
  let main_v23 : IVec S_ 1 := andi main_v18 main_v22
  let main_v24 : FVec F S16x64 .f32 := Host.absf main_arg8
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S16 .f32 := Host.absf main_arg9
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S50000x128 .f32) (main_arg1 : IVec S2x800000 32) (main_arg2 : IVec S50000 32) (main_arg3 : IVec S50000 32) (main_arg4 : FVec F S32x128 .f32) (main_arg5 : FVec F S32 .f32) (main_arg6 : FVec F S22x16 .f32) (main_arg7 : FVec F S96x16 .f32) (main_arg8 : FVec F S16x64 .f32) (main_arg9 : FVec F S16 .f32) (main_arg10 : FVec F S16x64 .f32) (main_arg11 : FVec F S32x16 .f32) (main_arg12 : FVec F S32 .f32) (main_arg13 : FVec F S32x16 .f32) (main_arg14 : FVec F S1x32 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S32x128 .f32 := Host.absf main_arg4
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg5
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S22x16 .f32 := Host.absf main_arg6
  let main_cst_4 : FVec F S_ .f32 := constant S_ .f32 0x7F800000#32
  let main_v15 : FVec F S22x16 .f32 := broadcastInDim S22x16 ![] bcast_S_S22x16 main_cst_4
  let main_v16 : IVec S22x16 1 := cmpf .olt main_v14 main_v15
  fn_part1 (F := F) main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S32x128 : Shape := ⟨2, ![32, 128]⟩
abbrev S32 : Shape := ⟨1, ![32]⟩
abbrev S22x16 : Shape := ⟨2, ![22, 16]⟩
abbrev S96x16 : Shape := ⟨2, ![96, 16]⟩
abbrev S16x64 : Shape := ⟨2, ![16, 64]⟩
abbrev S16 : Shape := ⟨1, ![16]⟩
abbrev S32x16 : Shape := ⟨2, ![32, 16]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x16 : Shape := ⟨2, ![50000, 16]⟩
abbrev S128x32 : Shape := ⟨2, ![128, 32]⟩
abbrev S50000x64 : Shape := ⟨2, ![50000, 64]⟩
abbrev S5000x128 : Shape := ⟨2, ![5000, 128]⟩
abbrev S5000x16 : Shape := ⟨2, ![5000, 16]⟩
abbrev S5000x64 : Shape := ⟨2, ![5000, 64]⟩
abbrev S5000x32 : Shape := ⟨2, ![5000, 32]⟩
abbrev S800000x1 : Shape := ⟨2, ![800000, 1]⟩
abbrev S800000x64 : Shape := ⟨2, ![800000, 64]⟩
abbrev S64x16 : Shape := ⟨2, ![64, 16]⟩
abbrev S1x16 : Shape := ⟨2, ![1, 16]⟩
abbrev S5000x1 : Shape := ⟨2, ![5000, 1]⟩
abbrev S800000x16 : Shape := ⟨2, ![800000, 16]⟩
abbrev S16x32 : Shape := ⟨2, ![16, 32]⟩
abbrev S32x1 : Shape := ⟨2, ![32, 1]⟩
abbrev S1x1 : Shape := ⟨2, ![1, 1]⟩

abbrev nBuf : Space → Nat
  | .hbm => 90
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S50000, .i32⟩
  | .hbm, ⟨4, _⟩ => ⟨S32x128, .f32⟩
  | .hbm, ⟨5, _⟩ => ⟨S32, .f32⟩
  | .hbm, ⟨6, _⟩ => ⟨S22x16, .f32⟩
  | .hbm, ⟨7, _⟩ => ⟨S96x16, .f32⟩
  | .hbm, ⟨8, _⟩ => ⟨S16x64, .f32⟩
  | .hbm, ⟨9, _⟩ => ⟨S16, .f32⟩
  | .hbm, ⟨10, _⟩ => ⟨S16x64, .f32⟩
  | .hbm, ⟨11, _⟩ => ⟨S32x16, .f32⟩
  | .hbm, ⟨12, _⟩ => ⟨S32, .f32⟩
  | .hbm, ⟨13, _⟩ => ⟨S32x16, .f32⟩
  | .hbm, ⟨14, _⟩ => ⟨S1x32, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S50000, .i32⟩
  | .hbm, ⟨22, _⟩ => ⟨S50000, .i1⟩
  | .hbm, ⟨23, _⟩ => ⟨S_, .i32⟩
  | .hbm, ⟨24, _⟩ => ⟨S50000, .i32⟩
  | .hbm, ⟨25, _⟩ => ⟨S50000, .i32⟩
  | .hbm, ⟨26, _⟩ => ⟨S50000, .i32⟩
  | .hbm, ⟨27, _⟩ => ⟨S50000x1, .i32⟩
  | .hbm, ⟨28, _⟩ => ⟨S50000x16, .f32⟩
  | .hbm, ⟨29, _⟩ => ⟨S_, .i32⟩
  | .hbm, ⟨30, _⟩ => ⟨S50000, .i32⟩
  | .hbm, ⟨31, _⟩ => ⟨S50000, .i1⟩
  | .hbm, ⟨32, _⟩ => ⟨S_, .i32⟩
  | .hbm, ⟨33, _⟩ => ⟨S50000, .i32⟩
  | .hbm, ⟨34, _⟩ => ⟨S50000, .i32⟩
  | .hbm, ⟨35, _⟩ => ⟨S50000, .i32⟩
  | .hbm, ⟨36, _⟩ => ⟨S50000x1, .i32⟩
  | .hbm, ⟨37, _⟩ => ⟨S50000x16, .f32⟩
  | .hbm, ⟨38, _⟩ => ⟨S128x32, .f32⟩
  | .hbm, ⟨39, _⟩ => ⟨S1x32, .f32⟩
  | .hbm, ⟨40, _⟩ => ⟨S50000x64, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .f32⟩
  | .hbm, ⟨63, _⟩ => ⟨S_, .f32⟩
  | .hbm, ⟨64, _⟩ => ⟨S50000x64, .f32⟩
  | .hbm, ⟨65, _⟩ => ⟨S800000x1, .i32⟩
  | .hbm, ⟨66, _⟩ => ⟨S50000x64, .f32⟩
  | .hbm, ⟨67, _⟩ => ⟨S64x16, .f32⟩
  | .hbm, ⟨68, _⟩ => ⟨S64x16, .f32⟩
  | .hbm, ⟨69, _⟩ => ⟨S1x16, .f32⟩
  | .hbm, ⟨70, _⟩ => ⟨S50000x16, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x16, .f32⟩
  | .hbm, ⟨80, _⟩ => ⟨S_, .f32⟩
  | .hbm, ⟨81, _⟩ => ⟨S50000x16, .f32⟩
  | .hbm, ⟨82, _⟩ => ⟨S800000x1, .i32⟩
  | .hbm, ⟨83, _⟩ => ⟨S50000x16, .f32⟩
  | .hbm, ⟨84, _⟩ => ⟨S16x32, .f32⟩
  | .hbm, ⟨85, _⟩ => ⟨S16x32, .f32⟩
  | .hbm, ⟨86, _⟩ => ⟨S1x32, .f32⟩
  | .hbm, ⟨87, _⟩ => ⟨S32x1, .f32⟩
  | .hbm, ⟨88, _⟩ => ⟨S1x1, .f32⟩
  | .hbm, ⟨89, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S5000x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S128x32, .f32⟩
  | .local _ .vmem, ⟨7, _⟩ => ⟨S1x32, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | .local _ .vmem, ⟨16, _⟩ => ⟨S64x16, .f32⟩
  | .local _ .vmem, ⟨17, _⟩ => ⟨S1x16, .f32⟩
  | .local _ .vmem, ⟨18, _⟩ => ⟨S64x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x1, .f32⟩
  | .local _ .vmem, ⟨24, _⟩ => ⟨S5000x1, .f32⟩
  | .local _ .vmem, ⟨25, _⟩ => ⟨S5000x16, .f32⟩
  | .local _ .vmem, ⟨26, _⟩ => ⟨S5000x16, .f32⟩
  | .local _ .vmem, ⟨27, _⟩ => ⟨S16x32, .f32⟩
  | .local _ .vmem, ⟨28, _⟩ => ⟨S1x32, .f32⟩
  | .local _ .vmem, ⟨29, _⟩ => ⟨S16x32, .f32⟩
  | .local _ .vmem, ⟨30, _⟩ => ⟨S32x1, .f32⟩
  | .local _ .vmem, ⟨31, _⟩ => ⟨S1x1, .f32⟩
  | .local _ .vmem, ⟨32, _⟩ => ⟨S5000x1, .f32⟩
  | .local _ .vmem, ⟨33, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg8_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem8_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  transposes_S32x128_S128x32_1_0 : S32x128.Transposes [1, 0] S128x32
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x64_S5000x32_0_0 : ∀ a, (![0, 0] : Fin 2 → Nat) a + S5000x32.size a ≤ S5000x64.size a
  h_S5000x32 : 0 < S5000x32.numel
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x64_S5000x16_0_32 : ∀ a, (![0, 32] : Fin 2 → Nat) a + S5000x16.size a ≤ S5000x64.size a
  inb_S5000x64_S5000x16_0_48 : ∀ a, (![0, 48] : Fin 2 → Nat) a + S5000x16.size a ≤ S5000x64.size a
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  transposes_S16x64_S64x16_1_0 : S16x64.Transposes [1, 0] S64x16
  shapeCasts_S16_S1x16 : S16.ShapeCasts S1x16
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  bcast_S_S50000x16 : S_.BroadcastsInDim S50000x16 (![] : Fin 0 → Fin S50000x16.rank)
  transposes_S32x16_S16x32_1_0 : S32x16.Transposes [1, 0] S16x32
  transposes_S1x32_S32x1_1_0 : S1x32.Transposes [1, 0] S32x1
  shapeCasts_S1_S1x1 : S1.ShapeCasts S1x1
  broadcasts_S5000x1_S5000x16 : S5000x1.Broadcasts S5000x16
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  gather_S22x16_S50000x1_S50000x16_1_0_n_n_0_1_116_wf : GatherDims.WF S22x16 S50000x1 S50000x16 [1] [0] [] [0] [] 1 ![1, 16]
  gather_S96x16_S50000x1_S50000x16_1_0_n_n_0_1_116_wf : GatherDims.WF S96x16 S50000x1 S50000x16 [1] [0] [] [0] [] 1 ![1, 16]
  dot_S5000x128_S128x32_S5000x32_1_0_0_1_n_n_wf : DotDims.WF S5000x128 S128x32 S5000x32 [1] [0] [0] [1] [] []
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x16_S5000x16_1_0_0_1_n_n_wf : DotDims.WF S5000x64 S64x16 S5000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S5000x16_S16x32_S5000x32_1_0_0_1_n_n_wf : DotDims.WF S5000x16 S16x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S50000x16.size a
  hwx0_1 : ∀ i : grid0.Coords, EltTy.bits .f32 = 32 ∨ (Rect.block (s := S50000x16) S5000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S50000x16.size a
  hwx0_2 : ∀ i : grid0.Coords, EltTy.bits .f32 = 32 ∨ (Rect.block (s := S50000x16) S5000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x16.size a ≤ S64x16.size a
  hwx1_5 : ∀ i : grid1.Coords, EltTy.bits .f32 = 32 ∨ (Rect.block (s := S64x16) S64x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S50000x16.size a
  hwx1_6 : ∀ i : grid1.Coords, EltTy.bits .f32 = 32 ∨ (Rect.block (s := S50000x16) S5000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S50000x16.size a
  hwx2_0 : ∀ i : grid2.Coords, EltTy.bits .f32 = 32 ∨ (Rect.block (s := S50000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S50000x16.size a
  hwx2_2 : ∀ i : grid2.Coords, EltTy.bits .f32 = 32 ∨ (Rect.block (s := S50000x16) S5000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x32.size a ≤ S16x32.size a
  hwx2_3 : ∀ i : grid2.Coords, EltTy.bits .f32 = 32 ∨ (Rect.block (s := S16x32) S16x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x32.size a ≤ S16x32.size a
  hwx2_5 : ∀ i : grid2.Coords, EltTy.bits .f32 = 32 ∨ (Rect.block (s := S16x32) S16x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x1.size a ≤ S32x1.size a
  hwx2_6 : ∀ i : grid2.Coords, EltTy.bits .f32 = 32 ∨ (Rect.block (s := S32x1) S32x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x1.size a ≤ S50000x1.size a
  hwx2_8 : ∀ i : grid2.Coords, EltTy.bits .f32 = 32 ∨ (Rect.block (s := S50000x1) S5000x1.size (cc2_transform_8 i) (hinb2_8 i)).WholeWords (EltTy.packing .f32)

variable [Facts₀]

def gather_S22x16_S50000x1_S50000x16_1_0_n_n_0_1_116 : GatherDims S22x16 S50000x1 S50000x16 where
  offsetDims := [1]
  collapsedSliceDims := [0]
  operandBatchingDims := []
  startIndicesBatchingDims := []
  startIndexMap := [0]
  indexVectorDim := 1
  sliceSizes := ![1, 16]
  wf := gather_S22x16_S50000x1_S50000x16_1_0_n_n_0_1_116_wf
def gather_S96x16_S50000x1_S50000x16_1_0_n_n_0_1_116 : GatherDims S96x16 S50000x1 S50000x16 where
  offsetDims := [1]
  collapsedSliceDims := [0]
  operandBatchingDims := []
  startIndicesBatchingDims := []
  startIndexMap := [0]
  indexVectorDim := 1
  sliceSizes := ![1, 16]
  wf := gather_S96x16_S50000x1_S50000x16_1_0_n_n_0_1_116_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S64x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S16x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S16x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S32x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v58) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v59) S5000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S32x128 : Shape := ⟨2, ![32, 128]⟩
abbrev S32 : Shape := ⟨1, ![32]⟩
abbrev S22x16 : Shape := ⟨2, ![22, 16]⟩
abbrev S96x16 : Shape := ⟨2, ![96, 16]⟩
abbrev S16x64 : Shape := ⟨2, ![16, 64]⟩
abbrev S16 : Shape := ⟨1, ![16]⟩
abbrev S32x16 : Shape := ⟨2, ![32, 16]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x16 : Shape := ⟨2, ![50000, 16]⟩
abbrev S128x32 : Shape := ⟨2, ![128, 32]⟩
abbrev S50000x32 : Shape := ⟨2, ![50000, 32]⟩
abbrev S50000x64 : Shape := ⟨2, ![50000, 64]⟩
abbrev S800000x1 : Shape := ⟨2, ![800000, 1]⟩
abbrev S800000x64 : Shape := ⟨2, ![800000, 64]⟩
abbrev S64x16 : Shape := ⟨2, ![64, 16]⟩
abbrev S1x16 : Shape := ⟨2, ![1, 16]⟩
abbrev S800000x16 : Shape := ⟨2, ![800000, 16]⟩
abbrev S16x32 : Shape := ⟨2, ![16, 32]⟩
abbrev S32x1 : Shape := ⟨2, ![32, 1]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S50000, .i32⟩
  | .hbm, ⟨4, _⟩ => ⟨S32x128, .f32⟩
  | .hbm, ⟨5, _⟩ => ⟨S32, .f32⟩
  | .hbm, ⟨6, _⟩ => ⟨S22x16, .f32⟩
  | .hbm, ⟨7, _⟩ => ⟨S96x16, .f32⟩
  | .hbm, ⟨8, _⟩ => ⟨S16x64, .f32⟩
  | .hbm, ⟨9, _⟩ => ⟨S16, .f32⟩
  | .hbm, ⟨10, _⟩ => ⟨S16x64, .f32⟩
  | .hbm, ⟨11, _⟩ => ⟨S32x16, .f32⟩
  | .hbm, ⟨12, _⟩ => ⟨S32, .f32⟩
  | .hbm, ⟨13, _⟩ => ⟨S32x16, .f32⟩
  | .hbm, ⟨14, _⟩ => ⟨S1x32, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S50000, .i32⟩
  | .hbm, ⟨22, _⟩ => ⟨S50000, .i1⟩
  | .hbm, ⟨23, _⟩ => ⟨S_, .i32⟩
  | .hbm, ⟨24, _⟩ => ⟨S50000, .i32⟩
  | .hbm, ⟨25, _⟩ => ⟨S50000, .i32⟩
  | .hbm, ⟨26, _⟩ => ⟨S50000, .i32⟩
  | .hbm, ⟨27, _⟩ => ⟨S50000x1, .i32⟩
  | .hbm, ⟨28, _⟩ => ⟨S50000x16, .f32⟩
  | .hbm, ⟨29, _⟩ => ⟨S_, .i32⟩
  | .hbm, ⟨30, _⟩ => ⟨S50000, .i32⟩
  | .hbm, ⟨31, _⟩ => ⟨S50000, .i1⟩
  | .hbm, ⟨32, _⟩ => ⟨S_, .i32⟩
  | .hbm, ⟨33, _⟩ => ⟨S50000, .i32⟩
  | .hbm, ⟨34, _⟩ => ⟨S50000, .i32⟩
  | .hbm, ⟨35, _⟩ => ⟨S50000, .i32⟩
  | .hbm, ⟨36, _⟩ => ⟨S50000x1, .i32⟩
  | .hbm, ⟨37, _⟩ => ⟨S50000x16, .f32⟩
  | .hbm, ⟨38, _⟩ => ⟨S128x32, .f32⟩
  | .hbm, ⟨39, _⟩ => ⟨S50000x32, .f32⟩
  | .hbm, ⟨40, _⟩ => ⟨S1x32, .f32⟩
  | .hbm, ⟨41, _⟩ => ⟨S50000x32, .f32⟩
  | .hbm, ⟨42, _⟩ => ⟨S50000x32, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x64, .f32⟩
  | .hbm, ⟨68, _⟩ => ⟨S50000x64, .f32⟩
  | .hbm, ⟨69, _⟩ => ⟨S64x16, .f32⟩
  | .hbm, ⟨70, _⟩ => ⟨S50000x16, .f32⟩
  | .hbm, ⟨71, _⟩ => ⟨S1x16, .f32⟩
  | .hbm, ⟨72, _⟩ => ⟨S50000x16, .f32⟩
  | .hbm, ⟨73, _⟩ => ⟨S50000x16, .f32⟩
  | .hbm, ⟨74, _⟩ => ⟨S64x16, .f32⟩
  | .hbm, ⟨75, _⟩ => ⟨S50000x16, .f32⟩
  | .hbm, ⟨76, _⟩ => ⟨S50000x16, .f32⟩
  | .hbm, ⟨77, _⟩ => ⟨S_, .f32⟩
  | .hbm, ⟨78, _⟩ => ⟨S50000x16, .f32⟩
  | .hbm, ⟨79, _⟩ => ⟨S50000x16, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x16, .f32⟩
  | .hbm, ⟨89, _⟩ => ⟨S_, .f32⟩
  | .hbm, ⟨90, _⟩ => ⟨S50000x16, .f32⟩
  | .hbm, ⟨91, _⟩ => ⟨S800000x1, .i32⟩
  | .hbm, ⟨92, _⟩ => ⟨S50000x16, .f32⟩
  | .hbm, ⟨93, _⟩ => ⟨S_, .f32⟩
  | .hbm, ⟨94, _⟩ => ⟨S800000, .f32⟩
  | .hbm, ⟨95, _⟩ => ⟨S_, .f32⟩
  | .hbm, ⟨96, _⟩ => ⟨S50000, .f32⟩
  | .hbm, ⟨97, _⟩ => ⟨S800000x1, .i32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x16, .f32⟩
  | .hbm, ⟨104, _⟩ => ⟨S50000x16, .f32⟩
  | .hbm, ⟨105, _⟩ => ⟨S16x32, .f32⟩
  | .hbm, ⟨106, _⟩ => ⟨S50000x32, .f32⟩
  | .hbm, ⟨107, _⟩ => ⟨S1x32, .f32⟩
  | .hbm, ⟨108, _⟩ => ⟨S50000x32, .f32⟩
  | .hbm, ⟨109, _⟩ => ⟨S50000x32, .f32⟩
  | .hbm, ⟨110, _⟩ => ⟨S16x32, .f32⟩
  | .hbm, ⟨111, _⟩ => ⟨S50000x32, .f32⟩
  | .hbm, ⟨112, _⟩ => ⟨S50000x32, .f32⟩
  | .hbm, ⟨113, _⟩ => ⟨S_, .f32⟩
  | .hbm, ⟨114, _⟩ => ⟨S50000x32, .f32⟩
  | .hbm, ⟨115, _⟩ => ⟨S50000x32, .f32⟩
  | .hbm, ⟨116, _⟩ => ⟨S32x1, .f32⟩
  | .hbm, ⟨117, _⟩ => ⟨S50000x1, .f32⟩
  | .hbm, ⟨118, _⟩ => ⟨S1x1, .f32⟩
  | .hbm, ⟨119, _⟩ => ⟨S50000x1, .f32⟩
  | .hbm, ⟨120, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call0_cst : Ref sig .tc := ⟨.hbm, 77, rfl⟩
abbrev main_call0_v0 : Ref sig .tc := ⟨.hbm, 78, rfl⟩
abbrev main_v51 : Ref sig .tc := ⟨.hbm, 79, rfl⟩
abbrev main_c_8 : Ref sig .tc := ⟨.hbm, 80, rfl⟩
abbrev main_v52 : Ref sig .tc := ⟨.hbm, 81, rfl⟩
abbrev main_v53 : Ref sig .tc := ⟨.hbm, 82, rfl⟩
abbrev main_c_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_call1_cst : Ref sig .tc := ⟨.hbm, 113, rfl⟩
abbrev main_call1_v0 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  transposes_S32x128_S128x32_1_0 : S32x128.Transposes [1, 0] S128x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  concatenates_S50000x32_S50000x16_S50000x16_S50000x64_d1 : Shape.Concatenates [S50000x32, S50000x16, S50000x16] S50000x64 1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S16x64_S64x16_1_0 : S16x64.Transposes [1, 0] S64x16
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  transposes_S32x16_S16x32_1_0 : S32x16.Transposes [1, 0] S16x32
  bcast_S_S50000x32 : S_.BroadcastsInDim S50000x32 (![] : Fin 0 → Fin S50000x32.rank)
  transposes_S1x32_S32x1_1_0 : S1x32.Transposes [1, 0] S32x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S22x16_S50000x1_S50000x16_1_0_n_n_0_1_116_wf : GatherDims.WF S22x16 S50000x1 S50000x16 [1] [0] [] [0] [] 1 ![1, 16]
  gather_S96x16_S50000x1_S50000x16_1_0_n_n_0_1_116_wf : GatherDims.WF S96x16 S50000x1 S50000x16 [1] [0] [] [0] [] 1 ![1, 16]
  dot_S50000x128_S128x32_S50000x32_1_0_0_1_n_n_wf : DotDims.WF S50000x128 S128x32 S50000x32 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x16_S50000x16_1_0_0_1_n_n_wf : DotDims.WF S50000x64 S64x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S50000x16_S16x32_S50000x32_1_0_0_1_n_n_wf : DotDims.WF S50000x16 S16x32 S50000x32 [1] [0] [0] [1] [] []
  dot_S50000x32_S32x1_S50000x1_1_0_0_1_n_n_wf : DotDims.WF S50000x32 S32x1 S50000x1 [1] [0] [0] [1] [] []

variable [Facts₀]

def gather_S22x16_S50000x1_S50000x16_1_0_n_n_0_1_116 : GatherDims S22x16 S50000x1 S50000x16 where
  offsetDims := [1]
  collapsedSliceDims := [0]
  operandBatchingDims := []
  startIndicesBatchingDims := []
  startIndexMap := [0]
  indexVectorDim := 1
  sliceSizes := ![1, 16]
  wf := gather_S22x16_S50000x1_S50000x16_1_0_n_n_0_1_116_wf
def gather_S96x16_S50000x1_S50000x16_1_0_n_n_0_1_116 : GatherDims S96x16 S50000x1 S50000x16 where
  offsetDims := [1]
  collapsedSliceDims := [0]
  operandBatchingDims := []
  startIndicesBatchingDims := []
  startIndexMap := [0]
  indexVectorDim := 1
  sliceSizes := ![1, 16]
  wf := gather_S96x16_S50000x1_S50000x16_1_0_n_n_0_1_116_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x16_S16x32_S50000x32_1_0_0_1_n_n : DotDims S50000x16 S16x32 S50000x32 where
  lhsContracting := [1]
  rhsContracting := [0]
  lhsNonContracting := [0]
  rhsNonContracting := [1]
  lhsBatch := []
  rhsBatch := []
  wf := dot_S50000x16_S16x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.SageSpec.lean ====
/-
  The three dense stages of the network as whole-array functions, at the ideal values.

  Every node row goes through three dense stages; between them the rows are mixed along the edges by a gather and
  a segment sum, which both programs do with the same host operations and which are never opened here.
    * `feat`: the projected features `X · Wt + b` side by side with the two embedding rows (64 columns).
    * `layer1`: `max (mean · Wl + b + h · Wr) 0`, the first aggregation layer, over the neighbourhood mean `mean`
      and the node's own features `h`.
    * `layer2`: the second aggregation layer followed by the final linear map to one column.
  The tiled program forms the mean as `agg · (1 / n)` with `n = max count 1` computed once (`meanMul`), the plain one
  as the quotient `agg / n` (`meanDiv`); on the extended reals the two agree as soon as `n ≠ 0` (`meanMul_eq_meanDiv`),
  because a quotient by a non-zero `n` is the product with `n⁻¹` and `1 / n` is `n⁻¹`.
-/
import proofs.«137122_j57741540328069_1_alg».proof.Proof.Gen.ReferenceIdeal
import Idealize.ShloMosaic.PureOps.Ideal
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx Cert.ReferenceIdeal Cert.ReferenceIdeal.Facts₀

/-- Projected features, then the region embedding row, then the department embedding row. -/
def feat (X : FVec Ideal S50000x128 .f32) (G1 G2 : FVec Ideal S50000x16 .f32) (Wt : FVec Ideal S128x32 .f32)
    (B : FVec Ideal S1x32 .f32) : FVec Ideal S50000x64 .f32 :=
  concatenate S50000x64 1 [⟨S50000x32, addf (Host.dotGeneral dot_S50000x128_S128x32_S50000x32_1_0_0_1_n_n none X Wt)
    (broadcastInDim S50000x32 ![0, 1] bcast_S1x32_S50000x32_0_1 B)⟩, ⟨S50000x16, G1⟩, ⟨S50000x16, G2⟩]
    concatenates_S50000x32_S50000x16_S50000x16_S50000x64_d1

/-- The first aggregation layer over a neighbourhood mean and the node's own features. -/
def layer1 (MEAN X : FVec Ideal S50000x64 .f32) (Wl : FVec Ideal S64x16 .f32) (B : FVec Ideal S1x16 .f32)
    (Wr : FVec Ideal S64x16 .f32) : FVec Ideal S50000x16 .f32 :=
  maximumf (addf (addf (Host.dotGeneral dot_S50000x64_S64x16_S50000x16_1_0_0_1_n_n none MEAN Wl)
      (broadcastInDim S50000x16 ![0, 1] bcast_S1x16_S50000x16_0_1 B))
    (Host.dotGeneral dot_S50000x64_S64x16_S50000x16_1_0_0_1_n_n none X Wr))
    (broadcastInDim S50000x16 ![] bcast_S_S50000x16 (constant S_ .f32 0x00000000#32))

/-- The second aggregation layer and the final linear map. -/
def layer2 (MEAN X : FVec Ideal S50000x16 .f32) (Wl : FVec Ideal S16x32 .f32) (B : FVec Ideal S1x32 .f32)
    (Wr : FVec Ideal S16x32 .f32) (Wlin : FVec Ideal S32x1 .f32) (Blin : FVec Ideal S1x1 .f32) :
    FVec Ideal S50000x1 .f32 :=
  addf (Host.dotGeneral dot_S50000x32_S32x1_S50000x1_1_0_0_1_n_n none
      (maximumf (addf (addf (Host.dotGeneral dot_S50000x16_S16x32_S50000x32_1_0_0_1_n_n none MEAN Wl)
          (broadcastInDim S50000x32 ![0, 1] bcast_S1x32_S50000x32_0_1 B))
        (Host.dotGeneral dot_S50000x16_S16x32_S50000x32_1_0_0_1_n_n none X Wr))
        (broadcastInDim S50000x32 ![] bcast_S_S50000x32 (constant S_ .f32 0x00000000#32))) Wlin)
    (broadcastInDim S50000x1 ![0, 1] bcast_S1x1_S50000x1_0_1 Blin)

/-- The mean as the tiled program forms it: the sum times a per-row factor kept as a column. -/
def meanMul64 (AGG : FVec Ideal S50000x64 .f32) (INV : FVec Ideal S50000x1 .f32) : FVec Ideal S50000x64 .f32 :=
  mulf AGG (broadcastInDim S50000x64 ![0, 1] bcast_S50000x1_S50000x64_0_1 INV)
def meanMul16 (AGG : FVec Ideal S50000x16 .f32) (INV : FVec Ideal S50000x1 .f32) : FVec Ideal S50000x16 .f32 :=
  mulf AGG (broadcastInDim S50000x16 ![0, 1] bcast_S50000x1_S50000x16_0_1 INV)

/-- The mean as the plain program forms it: the sum divided by the per-row count kept as a column. -/
def meanDiv64 (AGG : FVec Ideal S50000x64 .f32) (CNT : FVec Ideal S50000x1 .f32) : FVec Ideal S50000x64 .f32 :=
  Host.divf AGG (broadcastInDim S50000x64 ![0, 1] bcast_S50000x1_S50000x64_0_1 CNT)
def meanDiv16 (AGG : FVec Ideal S50000x16 .f32) (CNT : FVec Ideal S50000x1 .f32) : FVec Ideal S50000x16 .f32 :=
  Host.divf AGG (broadcastInDim S50000x16 ![0, 1] bcast_S50000x1_S50000x16_0_1 CNT)

end Cert.Sage

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.Region0.lean ====
/-
  The first tiled stage, read as one array.

  Grid point `t` takes rows `5000 t … 5000 t + 4999` of the node features and of the two embedding-row arrays, and
  writes the same rows of a 64-column array: columns 0–31 the projected features `x · Wt + b`, columns 32–47 the
  first embedding row, columns 48–63 the second. The ten row blocks tile the array, so after the stage the array is
  `Cert.Sage.feat` of the arrays the stage found.
-/
import proofs.«137122_j57741540328069_1_alg».proof.Proof.Gen.KernelIdeal.Frame
import proofs.«137122_j57741540328069_1_alg».proof.Proof.SageSpec
import proofs.«137122_j57741540328069_1_alg».proof.Proof.LibAffineRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand0

open Cert.KernelIdeal Cert.KernelIdeal.Gen

variable (V : (c : Dev nD) → (b : Ref sig .tc) → Buf (Elt Ideal) ((c : Thread nD τ).loc b))

/-! ## Both products are the plain matrix product

The tile's matrix unit contracts the 128 columns of a [5000, 128] tile with the 128 rows of the [128, 32] weights;
the plain program's product does the same over all 50000 rows. -/

theorem tileDot_lhs_0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem tileDot_lhs_1 (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
theorem tileDot_rhs_0 (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
theorem tileDot_rhs_1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- The tile's product is the plain [5000, 128] by [128, 32] product. -/
theorem tileDot_plain : Cert.Lib.PlainDot (R := 5000) (K := 128) (M := 32) dot_S5000x128_S128x32_S5000x32_1_0_0_1_n_n :=
  ⟨rfl, rfl, tileDot_lhs_0, tileDot_lhs_1, tileDot_rhs_0, tileDot_rhs_1⟩

theorem wholeDot_lhs_0 (i : Cert.ReferenceIdeal.S50000x32.Idx) (q : Cert.ReferenceIdeal.dot_S50000x128_S128x32_S50000x32_1_0_0_1_n_n.contr.Idx) :
    (Cert.ReferenceIdeal.dot_S50000x128_S128x32_S50000x32_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x32_S50000x32_1_0_0_1_n_n.lhsBatch by decide), dif_pos (show (0 : Fin Cert.ReferenceIdeal.S50000x128.rank) ∈ Cert.ReferenceIdeal.dot_S50000x128_S128x32_S50000x32_1_0_0_1_n_n.lhsNonContracting by decide)]
  rfl
theorem wholeDot_lhs_1 (i : Cert.ReferenceIdeal.S50000x32.Idx) (q : Cert.ReferenceIdeal.dot_S50000x128_S128x32_S50000x32_1_0_0_1_n_n.contr.Idx) :
    (Cert.ReferenceIdeal.dot_S50000x128_S128x32_S50000x32_1_0_0_1_n_n.lhsIdx i q 1).val = (q ⟨0, by decide⟩).val :=
  Cert.ReferenceIdeal.dot_S50000x128_S128x32_S50000x32_1_0_0_1_n_n.lhsIdx_val_of_single rfl i q
theorem wholeDot_rhs_0 (i : Cert.ReferenceIdeal.S50000x32.Idx) (q : Cert.ReferenceIdeal.dot_S50000x128_S128x32_S50000x32_1_0_0_1_n_n.contr.Idx) :
    (Cert.ReferenceIdeal.dot_S50000x128_S128x32_S50000x32_1_0_0_1_n_n.rhsIdx i q 0).val = (q ⟨0, by decide⟩).val :=
  Cert.ReferenceIdeal.dot_S50000x128_S128x32_S50000x32_1_0_0_1_n_n.rhsIdx_val_of_single rfl i q
theorem wholeDot_rhs_1 (i : Cert.ReferenceIdeal.S50000x32.Idx) (q : Cert.ReferenceIdeal.dot_S50000x128_S128x32_S50000x32_1_0_0_1_n_n.contr.Idx) :
    (Cert.ReferenceIdeal.dot_S50000x128_S128x32_S50000x32_1_0_0_1_n_n.rhsIdx i q 1).val = (i 1).val := by
  unfold DotDims.rhsIdx
  rw [dif_neg (show ¬(1 : Fin Cert.ReferenceIdeal.S128x32.rank) ∈ Cert.ReferenceIdeal.dot_S50000x128_S128x32_S50000x32_1_0_0_1_n_n.rhsBatch by decide), dif_pos (show (1 : Fin Cert.ReferenceIdeal.S128x32.rank) ∈ Cert.ReferenceIdeal.dot_S50000x128_S128x32_S50000x32_1_0_0_1_n_n.rhsNonContracting by decide)]
  rfl

/-- The plain program's product is the plain [50000, 128] by [128, 32] product. -/
theorem wholeDot_plain : Cert.Lib.PlainDot (R := 50000) (K := 128) (M := 32) Cert.ReferenceIdeal.dot_S50000x128_S128x32_S50000x32_1_0_0_1_n_n :=
  ⟨rfl, rfl, wholeDot_lhs_0, wholeDot_lhs_1, wholeDot_rhs_0, wholeDot_rhs_1⟩

/-! ## A dense row, tile against whole

The tile computes xb · w + b with the bias kept as a [1, M] block broadcast over the tile's rows; the plain program
computes X · w + b with the same [1, M] row broadcast over all rows. Both products are the sum over the contracted
index, so row r of the tile's result is row n r of the whole result once row r of the tile is row n r of X. -/

theorem dense_rows {R K M N : ℕ}
    {dB : DotDims ⟨2, ![R, K]⟩ ⟨2, ![K, M]⟩ ⟨2, ![R, M]⟩} (hB : Cert.Lib.PlainDot dB)
    {dW : DotDims ⟨2, ![N, K]⟩ ⟨2, ![K, M]⟩ ⟨2, ![N, M]⟩} (hW : Cert.Lib.PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (n : Fin R → Fin N)
    (hx : ∀ r k, xb (ix2 r k) = X (ix2 (n r) k))
    (ht : FTy.bits .bf16 < FTy.bits .f32) (hscw : (⟨2, ![K, M]⟩ : Shape).ShapeCasts ⟨2, ![K, M]⟩)
    (hsc : (⟨2, ![1, M]⟩ : Shape).ShapeCasts ⟨2, ![1, M]⟩)
    (hbc : (⟨2, ![1, M]⟩ : Shape).Broadcasts ⟨2, ![R, M]⟩)
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 (shapeCast ⟨2, ![K, M]⟩ w hscw) ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 b2) (ix2 (n r) q) := by
  rw [addf_apply, addf_apply, shapeCast_self w, Cert.Lib.matmul_zero_apply hB, Cert.Lib.dotGeneral_apply hW,
    broadcastTo_1b_ab_apply, shapeCast_self,
    broadcastInDim_apply _ h2 b2 (ix2 (n r) q) (ix2 (0 : Fin 1) q) (fun a => by
      match a with
      | ⟨0, _⟩ => show (0 : ℕ) = if (1 : ℕ) = 1 then 0 else (n r).val; rw [if_pos rfl]
      | ⟨1, _⟩ => show q.val = if M = 1 then 0 else q.val; split <;> [(have := q.isLt; omega); rfl])]
  exact congrArg (· + b2 (ix2 (0 : Fin 1) q)) (Finset.sum_congr rfl fun k _ => by rw [hx])

/-! ## The body's three stored values at an index -/

/-- Columns 0–31: the projected features of the tile's row are those of the whole array's row. -/
theorem proj_rows (x0 : FVec Ideal S5000x128 .f32) (x3 : FVec Ideal S128x32 .f32) (x4 : FVec Ideal S1x32 .f32)
    (X : FVec Ideal Cert.ReferenceIdeal.S50000x128 .f32) (n : Fin 5000 → Fin 50000)
    (hx : ∀ (r : Fin 5000) (k : Fin 128), x0 (ix2 r k) = X (ix2 (n r) k)) (r : Fin 5000) (q : Fin 32) :
    k0_pay1 (F := Ideal) x0 x3 x4 (ix2 r q)
      = addf (Host.dotGeneral (F := Ideal) Cert.ReferenceIdeal.dot_S50000x128_S128x32_S50000x32_1_0_0_1_n_n none X x3)
          (broadcastInDim Cert.ReferenceIdeal.S50000x32 ![0, 1] Cert.ReferenceIdeal.Facts₀.bcast_S1x32_S50000x32_0_1 x4) (ix2 (n r) q) := by
  unfold k0_pay1
  exact dense_rows tileDot_plain wholeDot_plain x0 X x3 x4 n hx _ _ _ _ _ r q

/-- Columns 32–47 and 48–63: an embedding row is stored as it was read. -/
theorem emb1_at (x1 : FVec Ideal S5000x16 .f32) (r : Fin 5000) (q : Fin 16) : k0_pay2 (F := Ideal) x1 (ix2 r q) = x1 (ix2 r q) := by
  unfold k0_pay2
  exact congrFun (shapeCast_self x1 _) (ix2 r q)
theorem emb2_at (x2 : FVec Ideal S5000x16 .f32) (r : Fin 5000) (q : Fin 16) : k0_pay3 (F := Ideal) x2 (ix2 r q) = x2 (ix2 r q) := by
  unfold k0_pay3
  exact congrFun (shapeCast_self x2 _) (ix2 r q)

/-! ## The 64-column array at an index

The array is three arrays side by side along the columns: 32 columns of projected features, then 16 and 16 columns of
embedding rows. An index reads the piece its column falls in, at the column less the columns before that piece. -/

theorem feat_proj_at (X : FVec Ideal Cert.ReferenceIdeal.S50000x128 .f32) (G1 G2 : FVec Ideal Cert.ReferenceIdeal.S50000x16 .f32)
    (Wt : FVec Ideal Cert.ReferenceIdeal.S128x32 .f32) (B : FVec Ideal Cert.ReferenceIdeal.S1x32 .f32)
    (j : Cert.ReferenceIdeal.S50000x64.Idx) (n : Fin 50000) (q : Fin 32) (h0 : (j 0).val = n.val) (h1 : (j 1).val = q.val) :
    Cert.Sage.feat X G1 G2 Wt B j
      = addf (Host.dotGeneral (F := Ideal) Cert.ReferenceIdeal.dot_S50000x128_S128x32_S50000x32_1_0_0_1_n_n none X Wt)
          (broadcastInDim Cert.ReferenceIdeal.S50000x32 ![0, 1] Cert.ReferenceIdeal.Facts₀.bcast_S1x32_S50000x32_0_1 B) (ix2 n q) := by
  unfold Cert.Sage.feat
  refine concatenate_apply_piece 1 _ _ j 0 (by show (0 : ℕ) < 3; omega) Cert.ReferenceIdeal.S50000x32 _ rfl rfl 0 rfl (ix2 n q) (fun b hb => ?_) ?_
  · match b with
    | ⟨0, _⟩ => exact h0.symm
    | ⟨1, _⟩ => exact absurd rfl hb
  · show 0 + q.val = (j 1).val
    omega

theorem feat_emb1_at (X : FVec Ideal Cert.ReferenceIdeal.S50000x128 .f32) (G1 G2 : FVec Ideal Cert.ReferenceIdeal.S50000x16 .f32)
    (Wt : FVec Ideal Cert.ReferenceIdeal.S128x32 .f32) (B : FVec Ideal Cert.ReferenceIdeal.S1x32 .f32)
    (j : Cert.ReferenceIdeal.S50000x64.Idx) (n : Fin 50000) (q : Fin 16) (h0 : (j 0).val = n.val) (h1 : (j 1).val = 32 + q.val) :
    Cert.Sage.feat X G1 G2 Wt B j = G1 (ix2 n q) := by
  unfold Cert.Sage.feat
  refine concatenate_apply_piece 1 _ _ j 1 (by show (1 : ℕ) < 3; omega) Cert.ReferenceIdeal.S50000x16 G1 rfl rfl 32 rfl (ix2 n q) (fun b hb => ?_) ?_
  · match b with
    | ⟨0, _⟩ => exact h0.symm
    | ⟨1, _⟩ => exact absurd rfl hb
  · show 32 + q.val = (j 1).val
    omega

theorem feat_emb2_at (X : FVec Ideal Cert.ReferenceIdeal.S50000x128 .f32) (G1 G2 : FVec Ideal Cert.ReferenceIdeal.S50000x16 .f32)
    (Wt : FVec Ideal Cert.ReferenceIdeal.S128x32 .f32) (B : FVec Ideal Cert.ReferenceIdeal.S1x32 .f32)
    (j : Cert.ReferenceIdeal.S50000x64.Idx) (n : Fin 50000) (q : Fin 16) (h0 : (j 0).val = n.val) (h1 : (j 1).val = 48 + q.val) :
    Cert.Sage.feat X G1 G2 Wt B j = G2 (ix2 n q) := by
  unfold Cert.Sage.feat
  refine concatenate_apply_piece 1 _ _ j 2 (by show (2 : ℕ) < 3; omega) Cert.ReferenceIdeal.S50000x16 G2 rfl rfl 48 rfl (ix2 n q) (fun b hb => ?_) ?_
  · match b with
    | ⟨0, _⟩ => exact h0.symm
    | ⟨1, _⟩ => exact absurd rfl hb
  · show 48 + q.val = (j 1).val
    omega

/-! ## What the body leaves in its [5000, 64] block

The body stores three column bands into the block, of widths 32, 16 and 16; each band's stored value at a row is the
whole array's value at the row the tile's row stands for, so the block read back is the 64-column array's rows. -/

theorem hz : (![0, 0] : Fin 2 → Nat) = fun _ => 0 := funext fun a => by fin_cases a <;> rfl

section Pieces
variable {F : FTy → Type} [FloatOps F]

/-- The body's three stores, last first, over the blocks the body was given. -/
theorem run_pieces (c : Dev nD) (i : grid0.Coords) (arg1 : Memref sig .tc .vmem S5000x128 .f32) (harg1 : arg1.IsWhole) (arg2 : Memref sig .tc .vmem S5000x16 .f32) (harg2 : arg2.IsWhole) (arg3 : Memref sig .tc .vmem S5000x16 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S5000x64 .f32) (harg6 : arg6.IsWhole)
    (x0 : Vec F S5000x128 .f32) (x1 x2 : Vec F S5000x16 .f32) (x3 : Vec F S128x32 .f32) (x4 : Vec F S1x32 .f32) :
    (kernelRun0_A c i arg1 harg1 arg2 harg2 arg3 harg3 arg4 harg4 arg5 harg5 arg6 harg6 x0 x1 x2 x3 x4).1
      = [⟨Rect.unit ![0, 48] ![5000, 16] inb_S5000x64_S5000x16_0_48, k0_pay3 x2⟩,
         ⟨Rect.unit ![0, 32] ![5000, 16] inb_S5000x64_S5000x16_0_32, k0_pay2 x1⟩,
         ⟨Rect.unit ![0, 0] ![5000, 32] inb_S5000x64_S5000x32_0_0, k0_pay1 x0 x3 x4⟩] := by
  unfold kernelRun0_A
  dsimp only
  try sl_unfold_words
  simp only [View.readAt_eq_ld, harg1.read_unread, harg2.read_unread, harg3.read_unread, harg4.read_unread, harg5.read_unread,
    View.ld_unit_zero (S := S5000x128) hz, View.ld_unit_zero (S := S5000x16) hz, View.ld_unit_zero (S := S128x32) hz,
    View.ld_unit_zero (S := S1x32) hz]

end Pieces

/-- ROW BY ROW: where row r of each tile is row n r of its array and the weights and bias are whole, the block the body leaves reads, at (r, q), the
    64-column array at (n r, q). -/
theorem block_rows (c : Dev nD) (i : grid0.Coords) (arg1 : Memref sig .tc .vmem S5000x128 .f32) (harg1 : arg1.IsWhole) (arg2 : Memref sig .tc .vmem S5000x16 .f32) (harg2 : arg2.IsWhole) (arg3 : Memref sig .tc .vmem S5000x16 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S5000x64 .f32) (harg6 : arg6.IsWhole)
    (x0 : FVec Ideal S5000x128 .f32) (x1 x2 : FVec Ideal S5000x16 .f32) (x3 : FVec Ideal S128x32 .f32) (x4 : FVec Ideal S1x32 .f32)
    (X : FVec Ideal Cert.ReferenceIdeal.S50000x128 .f32) (G1 G2 : FVec Ideal Cert.ReferenceIdeal.S50000x16 .f32)
    (Wt : FVec Ideal Cert.ReferenceIdeal.S128x32 .f32) (B : FVec Ideal Cert.ReferenceIdeal.S1x32 .f32)
    (n : Fin 5000 → Fin 50000)
    (h0 : ∀ (r : Fin 5000) (k : Fin 128), x0 (ix2 r k) = X (ix2 (n r) k))
    (h1 : ∀ (r : Fin 5000) (k : Fin 16), x1 (ix2 r k) = G1 (ix2 (n r) k))
    (h2 : ∀ (r : Fin 5000) (k : Fin 16), x2 (ix2 r k) = G2 (ix2 (n r) k))
    (h3 : x3 = Wt) (h4 : x4 = B) (r : Fin 5000) (q : Fin 64) :
    out0_A_5 (F := Ideal) c i arg1 harg1 arg2 harg2 arg3 harg3 arg4 harg4 arg5 harg5 arg6 harg6 x0 x1 x2 x3 x4 (ix2 r q) = Cert.Sage.feat X G1 G2 Wt B (ix2 (n r) q) := by
  subst h3 h4
  have hc := cover0_A_5 (F := Ideal) c i arg1 harg1 arg2 harg2 arg3 harg3 arg4 harg4 arg5 harg5 arg6 harg6 x0 x1 x2 x3 x4
  unfold out0_A_5
  rw [View.read_writes_eq_canon _ _ _ hc]
  rw [run_pieces] at hc ⊢
  refine View.canon_apply_of_pieces (fun y => Cert.Sage.feat X G1 G2 x3 x4 (ix2 (n (y 0)) (y 1))) _ (fun p hp x => ?_) (ix2 r q) (hc (ix2 r q))
  simp only [List.mem_cons, List.mem_nil_iff, or_false] at hp
  rcases hp with rfl | rfl | rfl
  · obtain ⟨r', q', rfl⟩ : ∃ (r' : Fin 5000) (q' : Fin 16), x = ix2 r' q' := ⟨x 0, x 1, eq_ix2 x⟩
    refine (emb2_at x2 r' q').trans ((h2 r' q').trans (feat_emb2_at X G1 G2 x3 x4 _ (n r') q' ?_ ?_).symm)
    · show (n _).val = (n r').val
      exact congrArg (fun z => (n z).val) (Fin.ext (by show 0 + 1 * r'.val = r'.val; omega))
    · show 48 + 1 * q'.val = 48 + q'.val
      omega
  · obtain ⟨r', q', rfl⟩ : ∃ (r' : Fin 5000) (q' : Fin 16), x = ix2 r' q' := ⟨x 0, x 1, eq_ix2 x⟩
    refine (emb1_at x1 r' q').trans ((h1 r' q').trans (feat_emb1_at X G1 G2 x3 x4 _ (n r') q' ?_ ?_).symm)
    · show (n _).val = (n r').val
      exact congrArg (fun z => (n z).val) (Fin.ext (by show 0 + 1 * r'.val = r'.val; omega))
    · show 32 + 1 * q'.val = 32 + q'.val
      omega
  · obtain ⟨r', q', rfl⟩ : ∃ (r' : Fin 5000) (q' : Fin 32), x = ix2 r' q' := ⟨x 0, x 1, eq_ix2 x⟩
    refine (proj_rows x0 x3 x4 X n h0 r' q').trans (feat_proj_at X G1 G2 x3 x4 _ (n r') q' ?_ ?_).symm
    · show (n _).val = (n r').val
      exact congrArg (fun z => (n z).val) (Fin.ext (by show 0 + 1 * r'.val = r'.val; omega))
    · show 0 + 1 * q'.val = q'.val
      omega

/-! ## From blocks to the array

Point t works on rows 5000 t … 5000 t + 4999: the node features, the two embedding-row arrays and the output are cut
into ten row blocks and point t has block t of each; the weights and the bias are one block each, the same at every
point. -/

/-- The blocks' index maps over the ten points. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row of the whole arrays that row r of point t's tiles is. -/
def rowAt (t : Fin cfg0.N) (r : Fin 5000) : Fin 50000 :=
  ⟨5000 * t.val + r.val, by have := t.isLt; have hN : cfg0.N = 10 := N_0; omega⟩

/-- Row r of point t's tile of node features is row 5000 t + r of the array. -/
theorem x_block (c : Dev nD) (t : Fin cfg0.N) (r : Fin 5000) (k : Fin 128) :
    (iblk0 V c 0 t : FVec Ideal S5000x128 .f32) (ix2 r k)
      = (V c main_arg0 : FVec Ideal Cert.ReferenceIdeal.S50000x128 .f32) (ix2 (rowAt t r) k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * r.val = 5000 * t.val + r.val; omega
  | ⟨1, _⟩ => show win0_0.index t (1 : Fin 2) * 128 + 1 * k.val = k.val; omega

/-- The same for the two arrays of embedding rows. -/
theorem g1_block (c : Dev nD) (t : Fin cfg0.N) (r : Fin 5000) (k : Fin 16) :
    (iblk0 V c 1 t : FVec Ideal S5000x16 .f32) (ix2 r k)
      = (V c main_v10 : FVec Ideal Cert.ReferenceIdeal.S50000x16 .f32) (ix2 (rowAt t r) k) := by
  obtain ⟨-, -, e0, e1, -⟩ := idx_facts t
  unfold iblk0
  rw [View.read_apply]
  show V c main_v10 _ = V c main_v10 _
  refine congrArg (V c main_v10) (funext fun a => Fin.ext ?_)
  match a with
  | ⟨0, _⟩ => show win0_1.index t (0 : Fin 2) * 5000 + 1 * r.val = 5000 * t.val + r.val; omega
  | ⟨1, _⟩ => show win0_1.index t (1 : Fin 2) * 16 + 1 * k.val = k.val; omega
theorem g2_block (c : Dev nD) (t : Fin cfg0.N) (r : Fin 5000) (k : Fin 16) :
    (iblk0 V c 2 t : FVec Ideal S5000x16 .f32) (ix2 r k)
      = (V c main_v17 : FVec Ideal Cert.ReferenceIdeal.S50000x16 .f32) (ix2 (rowAt t r) k) := by
  obtain ⟨-, -, -, -, e0, e1, -⟩ := idx_facts t
  unfold iblk0
  rw [View.read_apply]
  show V c main_v17 _ = V c main_v17 _
  refine congrArg (V c main_v17) (funext fun a => Fin.ext ?_)
  match a with
  | ⟨0, _⟩ => show win0_2.index t (0 : Fin 2) * 5000 + 1 * r.val = 5000 * t.val + r.val; omega
  | ⟨1, _⟩ => show win0_2.index t (1 : Fin 2) * 16 + 1 * k.val = k.val; omega

/-- The weights' one block is the weights, at every point; -/
theorem w_block (c : Dev nD) (t : Fin cfg0.N) :
    (iblk0 V c 3 t : FVec Ideal S128x32 .f32) = (V c main_v18 : FVec Ideal Cert.ReferenceIdeal.S128x32 .f32) := by
  obtain ⟨-, -, -, -, -, -, e0, e1, -⟩ := idx_facts t
  funext j
  unfold iblk0
  rw [View.read_apply]
  show V c main_v18 _ = V c main_v18 _
  refine congrArg (V c main_v18) (funext fun a => Fin.ext ?_)
  match a with
  | ⟨0, _⟩ => show win0_3.index t (0 : Fin 2) * 128 + 1 * (j 0).val = (j 0).val; omega
  | ⟨1, _⟩ => show win0_3.index t (1 : Fin 2) * 32 + 1 * (j 1).val = (j 1).val; omega
/-- and the bias row's one block is the bias row. -/
theorem b_block (c : Dev nD) (t : Fin cfg0.N) :
    (iblk0 V c 4 t : FVec Ideal S1x32 .f32) = (V c main_v19 : FVec Ideal Cert.ReferenceIdeal.S1x32 .f32) := by
  obtain ⟨-, -, -, -, -, -, -, -, e0, e1, -⟩ := idx_facts t
  funext j
  unfold iblk0
  rw [View.read_apply]
  show V c main_v19 _ = V c main_v19 _
  refine congrArg (V c main_v19) (funext fun a => Fin.ext ?_)
  match a with
  | ⟨0, _⟩ => show win0_4.index t (0 : Fin 2) * 1 + 1 * (j 0).val = (j 0).val; omega
  | ⟨1, _⟩ => show win0_4.index t (1 : Fin 2) * 32 + 1 * (j 1).val = (j 1).val; omega

/-- WHAT POINT t WRITES BACK is block t of the 64-column array of the arrays the stage found. -/
theorem flushed_eq (c : Dev nD) (t : Fin cfg0.N) :
    (dat0 (F := Ideal) V c).flushed 5 t = ((cfg0.win 5).blk t).view.read (Elt Ideal) (Cert.Sage.feat (V c main_arg0) (V c main_v10) (V c main_v17) (V c main_v18) (V c main_v19)) := by
  show (cfg0.win 5).cut (grid0.coords t) ((dat0 V c).after 5 t) = _
  rw [after0_5]
  unfold outsAt0
  obtain ⟨-, -, -, -, -, -, -, -, -, -, e0, e1⟩ := idx_facts t
  funext j
  obtain ⟨p, q, rfl⟩ : ∃ (p : Fin 5000) (q : Fin 64), j = ix2 p q := ⟨j 0, j 1, eq_ix2 j⟩
  refine (block_rows c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) (iblk0 V c 4 t)
    (V c main_arg0) (V c main_v10) (V c main_v17) (V c main_v18) (V c main_v19) (rowAt t)
    (x_block V c t) (g1_block V c t) (g2_block V c t) (w_block V c t) (b_block V c t) p q).trans ?_
  show Cert.Sage.feat (V c main_arg0) (V c main_v10) (V c main_v17) (V c main_v18) (V c main_v19) (ix2 (rowAt t p) q) = Cert.Sage.feat (V c main_arg0) (V c main_v10) (V c main_v17) (V c main_v18) (V c main_v19) (((cfg0.win 5).blk t).view.emb (ix2 p q))
  refine congrArg (Cert.Sage.feat (V c main_arg0) (V c main_v10) (V c main_v17) (V c main_v18) (V c main_v19)) (funext fun a => Fin.ext ?_)
  match a with
  | ⟨0, _⟩ => show 5000 * t.val + p.val = win0_5.index t (0 : Fin 2) * 5000 + 1 * p.val; omega
  | ⟨1, _⟩ => show q.val = win0_5.index t (1 : Fin 2) * 64 + 1 * q.val; omega

/-- An index of the array is in point t's block iff each coordinate is in the block's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v20).slice (win0_5.rect t)).set ↔ _
  rw [View.set_slice_whole, Rect.mem_set_unit]
  exact Iff.rfl

/-- THE COVER: row i of the array is in the block of point i / 5000, which writes back. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- After the first stage its output array holds `feat` of the arrays the stage was entered with. -/
theorem region0_array (c : Dev nD) :
    (dat0 (F := Ideal) V c).arrAt 5 cfg0.N
      = Cert.Sage.feat (V c main_arg0) (V c main_v10) (V c main_v17) (V c main_v18) (V c main_v19) :=
  (dat0 (F := Ideal) V c).arrAt_eq_of_cover 5 _ (fun t _ => flushed_eq V c t) cover

end Cert.KernelIdeal.Hand0

end
-- ==== Proof.LibMeanRows.lean ====
/-
  Two layout laws and the law of the neighbourhood mean, at the ideal values. Nothing here depends on the sizes.

  * A vector `[M]` made a one-row matrix `[1, M]` by a reshape, or by a broadcast that puts it on the second axis,
    is the same row (`row_reshape_eq_bcast`); likewise a vector `[N]` made a column `[N, 1]` (`col_reshape_eq_bcast`).
  * THE MEAN. With `n` a row's count made at least one, one program scales the row's sum by the reciprocal `1 / n`
    kept as a column, the other divides the row's sum by `n`. On the extended reals a quotient by a non-zero `n` is
    the product with `n⁻¹` and `1 / n` is `1 · n⁻¹ = n⁻¹`; and `max c 1` is never zero, being at least one. So the
    two means are one array (`scaled_rows_eq_quot`), whatever the sums and the counts are, infinite ones included.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

variable {α : Type}

/-- A vector reshaped to one row is the vector broadcast onto the second axis of a one-row matrix. -/
theorem row_reshape_eq_bcast {M : ℕ} (b : (⟨1, ![M]⟩ : Shape).Idx → α)
    (hs : (⟨1, ![M]⟩ : Shape).ShapeCasts ⟨2, ![1, M]⟩)
    (hb : (⟨1, ![M]⟩ : Shape).BroadcastsInDim ⟨2, ![1, M]⟩ (![1] : Fin 1 → Fin 2)) :
    shapeCast ⟨2, ![1, M]⟩ b hs = broadcastInDim ⟨2, ![1, M]⟩ ![1] hb b := by
  funext j
  obtain ⟨p, q, rfl⟩ : ∃ (p : Fin 1) (q : Fin M), j = ix2 p q := ⟨j 0, j 1, eq_ix2 j⟩
  have hp : p.val = 0 := by have := p.isLt; omega
  rw [shapeCast_apply b hs (ix2 p q) (ix1 q) (by
      rw [Shape.rowMajor_val_one, Shape.rowMajor_val_two]
      show q.val = p.val * M + q.val
      rw [hp]; omega),
    broadcastInDim_apply _ hb b (ix2 p q) (ix1 q) (fun a => by
      match a with
      | ⟨0, _⟩ => show q.val = if M = 1 then 0 else q.val; split <;> [(have := q.isLt; omega); rfl])]

/-- A vector reshaped to one column is the vector broadcast onto the first axis of a one-column matrix. -/
theorem col_reshape_eq_bcast {N : ℕ} (b : (⟨1, ![N]⟩ : Shape).Idx → α)
    (hs : (⟨1, ![N]⟩ : Shape).ShapeCasts ⟨2, ![N, 1]⟩)
    (hb : (⟨1, ![N]⟩ : Shape).BroadcastsInDim ⟨2, ![N, 1]⟩ (![0] : Fin 1 → Fin 2)) :
    shapeCast ⟨2, ![N, 1]⟩ b hs = broadcastInDim ⟨2, ![N, 1]⟩ ![0] hb b := by
  funext j
  obtain ⟨p, q, rfl⟩ : ∃ (p : Fin N) (q : Fin 1), j = ix2 p q := ⟨j 0, j 1, eq_ix2 j⟩
  have hq : q.val = 0 := by have := q.isLt; omega
  rw [shapeCast_apply b hs (ix2 p q) (ix1 p) (by
      rw [Shape.rowMajor_val_one, Shape.rowMajor_val_two]
      show p.val = p.val * 1 + q.val
      rw [hq]; omega),
    broadcastInDim_apply _ hb b (ix2 p q) (ix1 p) (fun a => by
      match a with
      | ⟨0, _⟩ => show p.val = if N = 1 then 0 else p.val; split <;> [(have := p.isLt; omega); rfl])]

/-- A column `[N, 1]` broadcast over `K` columns reads, at `(n, k)`, the column at row `n`. -/
theorem bcast_col_apply {N K : ℕ} (v : (⟨2, ![N, 1]⟩ : Shape).Idx → α)
    (h : (⟨2, ![N, 1]⟩ : Shape).BroadcastsInDim ⟨2, ![N, K]⟩ (![0, 1] : Fin 2 → Fin 2)) (n : Fin N) (k : Fin K) :
    broadcastInDim ⟨2, ![N, K]⟩ ![0, 1] h v (ix2 n k) = v (ix2 n (0 : Fin 1)) :=
  broadcastInDim_apply _ h v (ix2 n k) (ix2 n (0 : Fin 1)) (fun a => by
    match a with
    | ⟨0, _⟩ => show n.val = if N = 1 then 0 else n.val; split <;> [(have := n.isLt; omega); rfl]
    | ⟨1, _⟩ => show (0 : ℕ) = if (1 : ℕ) = 1 then 0 else k.val; rw [if_pos rfl])

/-- The word of the float one is the real one. -/
theorem ofBits_one_f32 : Ideal.ofBits .f32 0x3F800000#32 = 1 := by
  simp [Ideal.ofBits, Ideal.ieee, -EReal.coe_mul]; norm_num

/-- A count made at least one is not zero. -/
theorem max_one_ne_zero (c : EReal) : max c 1 ≠ 0 := by
  intro h
  have h1 : (1 : EReal) ≤ max c 1 := le_max_right c 1
  rw [h] at h1
  exact absurd h1 (by norm_num)

/-- Scaling by the reciprocal of a non-zero extended real is dividing by it. -/
theorem mul_div_one_eq_div (a n : EReal) (hn : n ≠ 0) : a * Ideal.div 1 n = Ideal.div a n := by
  rw [Ideal.div, Ideal.div, if_neg hn, if_neg hn, one_mul]

/-- THE MEAN: the sums scaled by the column of reciprocals `1 / max c 1` are the sums divided by the column of
    `max c 1`. `ONES` is an array of ones, `CNT` any counts. -/
theorem scaled_rows_eq_quot {N K : ℕ} (AGG : FVec Ideal ⟨2, ![N, K]⟩ .f32) (CNT ONES ONES' : FVec Ideal ⟨1, ![N]⟩ .f32)
    (h1 : ∀ i, ONES i = 1) (h1' : ∀ i, ONES' i = 1)
    (hs : (⟨1, ![N]⟩ : Shape).ShapeCasts ⟨2, ![N, 1]⟩)
    (hb : (⟨1, ![N]⟩ : Shape).BroadcastsInDim ⟨2, ![N, 1]⟩ (![0] : Fin 1 → Fin 2))
    (hc : (⟨2, ![N, 1]⟩ : Shape).BroadcastsInDim ⟨2, ![N, K]⟩ (![0, 1] : Fin 2 → Fin 2)) :
    mulf AGG (broadcastInDim ⟨2, ![N, K]⟩ ![0, 1] hc
        (shapeCast ⟨2, ![N, 1]⟩ (Host.divf ONES' (maximumf CNT ONES)) hs))
      = Host.divf AGG (broadcastInDim ⟨2, ![N, K]⟩ ![0, 1] hc
          (broadcastInDim ⟨2, ![N, 1]⟩ ![0] hb (maximumf CNT ONES))) := by
  funext j
  obtain ⟨n, k, rfl⟩ : ∃ (n : Fin N) (k : Fin K), j = ix2 n k := ⟨j 0, j 1, eq_ix2 j⟩
  rw [col_reshape_eq_bcast _ hs hb]
  have hd : ∀ (A B : FVec Ideal ⟨2, ![N, K]⟩ .f32) (i : (⟨2, ![N, K]⟩ : Shape).Idx),
      Host.divf A B i = Ideal.div (A i) (B i) := fun _ _ _ => rfl
  rw [mulf_apply, hd, bcast_col_apply, bcast_col_apply]
  have e : ∀ (v : (⟨1, ![N]⟩ : Shape).Idx → EReal),
      broadcastInDim ⟨2, ![N, 1]⟩ ![0] hb v (ix2 n (0 : Fin 1)) = v (ix1 n) := fun v =>
    broadcastInDim_apply _ hb v (ix2 n (0 : Fin 1)) (ix1 n) (fun a => by
      match a with
      | ⟨0, _⟩ => show n.val = if N = 1 then 0 else n.val; split <;> [(have := n.isLt; omega); rfl])
  rw [e, e]
  show AGG (ix2 n k) * Ideal.div (ONES' (ix1 n)) (max (CNT (ix1 n)) (ONES (ix1 n)))
    = Ideal.div (AGG (ix2 n k)) (max (CNT (ix1 n)) (ONES (ix1 n)))
  rw [h1, h1']
  exact mul_div_one_eq_div _ _ (max_one_ne_zero _)

end Cert.Lib

end
-- ==== Proof.Region1.lean ====
/-
  The second tiled stage, read as one array.

  Grid point `t` takes rows `5000 t … 5000 t + 4999` of the neighbourhood sums, of the per-row factor (a column) and
  of the node features, multiplies each sum row by its factor, and writes the same rows of
  `max (mean · Wl + b + h · Wr) 0`. The ten row blocks tile the array, so after the stage the array is
  `Cert.Sage.layer1` of the mean `Cert.Sage.meanMul64` and of the arrays the stage found.
-/
import proofs.«137122_j57741540328069_1_alg».proof.Proof.Gen.KernelIdeal.Frame
import proofs.«137122_j57741540328069_1_alg».proof.Proof.SageSpec
import proofs.«137122_j57741540328069_1_alg».proof.Proof.LibAffineRows
import proofs.«137122_j57741540328069_1_alg».proof.Proof.LibMeanRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand1

open Cert.KernelIdeal Cert.KernelIdeal.Gen

variable (V : (c : Dev nD) → (b : Ref sig .tc) → Buf (Elt Ideal) ((c : Thread nD τ).loc b))

/-! ## The two products are plain matrix products -/

theorem tile_lhs_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem tile_lhs_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
theorem tile_rhs_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
theorem tile_rhs_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The tile's product contracts the 64 columns of a `[5000, 64]` tile against the 64 rows of a `[64, 16]` matrix. -/
theorem tile_plain : Cert.Lib.PlainDot dot_S5000x64_S64x16_S5000x16_1_0_0_1_n_n :=
  ⟨rfl, rfl, tile_lhs_0, tile_lhs_1, tile_rhs_0, tile_rhs_1⟩

theorem whole_lhs_0 (i : Cert.ReferenceIdeal.S50000x16.Idx) (q : Cert.ReferenceIdeal.dot_S50000x64_S64x16_S50000x16_1_0_0_1_n_n.contr.Idx) :
    (Cert.ReferenceIdeal.dot_S50000x64_S64x16_S50000x16_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x16_S50000x16_1_0_0_1_n_n.lhsBatch by decide), dif_pos (show (0 : Fin Cert.ReferenceIdeal.S50000x64.rank) ∈ Cert.ReferenceIdeal.dot_S50000x64_S64x16_S50000x16_1_0_0_1_n_n.lhsNonContracting by decide)]
  rfl
theorem whole_lhs_1 (i : Cert.ReferenceIdeal.S50000x16.Idx) (q : Cert.ReferenceIdeal.dot_S50000x64_S64x16_S50000x16_1_0_0_1_n_n.contr.Idx) :
    (Cert.ReferenceIdeal.dot_S50000x64_S64x16_S50000x16_1_0_0_1_n_n.lhsIdx i q 1).val = (q ⟨0, by decide⟩).val :=
  Cert.ReferenceIdeal.dot_S50000x64_S64x16_S50000x16_1_0_0_1_n_n.lhsIdx_val_of_single rfl i q
theorem whole_rhs_0 (i : Cert.ReferenceIdeal.S50000x16.Idx) (q : Cert.ReferenceIdeal.dot_S50000x64_S64x16_S50000x16_1_0_0_1_n_n.contr.Idx) :
    (Cert.ReferenceIdeal.dot_S50000x64_S64x16_S50000x16_1_0_0_1_n_n.rhsIdx i q 0).val = (q ⟨0, by decide⟩).val :=
  Cert.ReferenceIdeal.dot_S50000x64_S64x16_S50000x16_1_0_0_1_n_n.rhsIdx_val_of_single rfl i q
theorem whole_rhs_1 (i : Cert.ReferenceIdeal.S50000x16.Idx) (q : Cert.ReferenceIdeal.dot_S50000x64_S64x16_S50000x16_1_0_0_1_n_n.contr.Idx) :
    (Cert.ReferenceIdeal.dot_S50000x64_S64x16_S50000x16_1_0_0_1_n_n.rhsIdx i q 1).val = (i 1).val := by
  unfold DotDims.rhsIdx
  rw [dif_neg (show ¬(1 : Fin Cert.ReferenceIdeal.S64x16.rank) ∈ Cert.ReferenceIdeal.dot_S50000x64_S64x16_S50000x16_1_0_0_1_n_n.rhsBatch by decide), dif_pos (show (1 : Fin Cert.ReferenceIdeal.S64x16.rank) ∈ Cert.ReferenceIdeal.dot_S50000x64_S64x16_S50000x16_1_0_0_1_n_n.rhsNonContracting by decide)]
  rfl

/-- The whole array's product, the same contraction over all 50000 rows. -/
theorem whole_plain : Cert.Lib.PlainDot Cert.ReferenceIdeal.dot_S50000x64_S64x16_S50000x16_1_0_0_1_n_n :=
  ⟨rfl, rfl, whole_lhs_0, whole_lhs_1, whole_rhs_0, whole_rhs_1⟩

/-! ## Two broadcasts read at an index -/

/-- A column `[a, 1]` spread over `b` columns reads, at `(p, c)`, the column at row `p`. -/
theorem col_spread_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, M]` spread over `N` rows reads, at `(n, q)`, the row at column `q`. -/
theorem row_spread_apply {α : Type} {N M : ℕ} (v : (⟨2, ![1, M]⟩ : Shape).Idx → α)
    (h : (⟨2, ![1, M]⟩ : Shape).BroadcastsInDim ⟨2, ![N, M]⟩ (![0, 1] : Fin 2 → Fin 2)) (n : Fin N) (q : Fin M) :
    broadcastInDim ⟨2, ![N, M]⟩ ![0, 1] h v (ix2 n q) = v (ix2 (0 : Fin 1) q) :=
  broadcastInDim_apply _ h v (ix2 n q) (ix2 (0 : Fin 1) q) (fun ax => by
    match ax with
    | ⟨0, _⟩ => show (0 : ℕ) = if (1 : ℕ) = 1 then 0 else n.val; rw [if_pos rfl]
    | ⟨1, _⟩ => show q.val = if M = 1 then 0 else q.val; split <;> [(have := q.isLt; omega); rfl])

/-- A scalar spread over a whole array reads the scalar at every index. -/
theorem scalar_spread_apply {α : Type} {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun ax => ax.elim0)

/-! ## One row of the tile -/

/-- The scaled sums at `(n, k)`: the sum there times the row's factor. -/
theorem meanMul64_apply (AGG : FVec Ideal Cert.ReferenceIdeal.S50000x64 .f32) (INV : FVec Ideal Cert.ReferenceIdeal.S50000x1 .f32)
    (n : Fin 50000) (k : Fin 64) :
    Cert.Sage.meanMul64 AGG INV (ix2 n k) = AGG (ix2 n k) * INV (ix2 n (0 : Fin 1)) := by
  unfold Cert.Sage.meanMul64
  rw [mulf_apply, Cert.Lib.bcast_col_apply]

/-- ROW BY ROW: where row `r` of the three row tiles is row `n r` of the three long arrays and the small operands are the
    whole small arrays, the tile's result at `(r, q)` is the layer's at `(n r, q)`: both are
    `max (∑ k, (sum (n r, k) · factor (n r)) · Wl (k, q) + b q + ∑ k, h (n r, k) · Wr (k, q)) 0`. -/
theorem tile_row (x0 : FVec Ideal S5000x64 .f32) (x1 : FVec Ideal S5000x1 .f32) (x2 : FVec Ideal S5000x64 .f32)
    (wl wr : FVec Ideal S64x16 .f32) (b : FVec Ideal S1x16 .f32)
    (AGG : FVec Ideal Cert.ReferenceIdeal.S50000x64 .f32) (INV : FVec Ideal Cert.ReferenceIdeal.S50000x1 .f32)
    (X : FVec Ideal Cert.ReferenceIdeal.S50000x64 .f32) (WL WR : FVec Ideal Cert.ReferenceIdeal.S64x16 .f32)
    (B : FVec Ideal Cert.ReferenceIdeal.S1x16 .f32) (n : Fin 5000 → Fin 50000)
    (h0 : ∀ (r : Fin 5000) (k : Fin 64), x0 (ix2 r k) = AGG (ix2 (n r) k))
    (h1 : ∀ r : Fin 5000, x1 (ix2 r (0 : Fin 1)) = INV (ix2 (n r) (0 : Fin 1)))
    (h2 : ∀ (r : Fin 5000) (k : Fin 64), x2 (ix2 r k) = X (ix2 (n r) k))
    (hl : ∀ (k : Fin 64) (q : Fin 16), wl (ix2 k q) = WL (ix2 k q))
    (hr : ∀ (k : Fin 64) (q : Fin 16), wr (ix2 k q) = WR (ix2 k q))
    (hb : ∀ q : Fin 16, b (ix2 (0 : Fin 1) q) = B (ix2 (0 : Fin 1) q))
    (r : Fin 5000) (q : Fin 16) :
    k1_pay1 (F := Ideal) x0 x1 x2 wl wr b (ix2 r q)
      = Cert.Sage.layer1 (Cert.Sage.meanMul64 AGG INV) X WL B WR (ix2 (n r) q) := by
  unfold k1_pay1 Cert.Sage.layer1
  simp only [shapeCast_self]
  rw [maximumf_apply, maximumf_apply, addf_apply, addf_apply, addf_apply, addf_apply,
    Cert.Lib.matmul_zero_apply tile_plain, Cert.Lib.matmul_zero_apply tile_plain,
    Cert.Lib.dotGeneral_apply whole_plain, Cert.Lib.dotGeneral_apply whole_plain,
    broadcastTo_1b_ab_apply, row_spread_apply, scalar_spread_apply, broadcast_apply, constant_apply, hb]
  simp only [mulf_apply, col_spread_apply, meanMul64_apply, h0, h1, h2, hl, hr]
  rfl

/-! ## From the ten row blocks to the array -/

theorem zero_offsets : (![0, 0] : Fin 2 → Nat) = fun _ => 0 := funext fun a => by fin_cases a <;> rfl

/-- The block index maps over the ten grid points: the sums, the factor column, the features and the output are at row
    block `t`; the two weight matrices and the bias row are whole, at block `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `r` of row block `t` is row `5000 t + r` of a 50000-row array. -/
def rowOf (t : Fin cfg1.N) (r : Fin 5000) : Fin 50000 :=
  ⟨5000 * t.val + r.val, by
    have ht : t.val < 10 := t.isLt.trans_eq N_1
    have hr : r.val < 5000 := r.isLt
    omega⟩

theorem rowOf_val (t : Fin cfg1.N) (r : Fin 5000) : (rowOf t r).val = 5000 * t.val + r.val := rfl

/-- Block `t` of the sums, read at `(r, k)`. -/
theorem sums_block (c : Dev nD) (t : Fin cfg1.N) (r : Fin 5000) (k : Fin 64) :
    (iblk1 V c 0 t : FVec Ideal S5000x64 .f32) (ix2 r k)
      = (V c main_v39 : FVec Ideal Cert.ReferenceIdeal.S50000x64 .f32) (ix2 (rowOf t r) k) := by
  obtain ⟨e0, e1, -⟩ := block_indices t
  show V c main_v39 (((cfg1.win 0).blk t).view.emb (ix2 r k)) = V c main_v39 (ix2 (rowOf t r) k)
  refine congrArg (V c main_v39) (funext fun a => Fin.ext ?_)
  match a with
  | ⟨0, _⟩ => show win1_0.index t (0 : Fin 2) * 5000 + 1 * r.val = 5000 * t.val + r.val; rw [e0]; omega
  | ⟨1, _⟩ => show win1_0.index t (1 : Fin 2) * 64 + 1 * k.val = k.val; rw [e1]; omega

/-- Block `t` of the factor column, read at row `r`. -/
theorem factor_block (c : Dev nD) (t : Fin cfg1.N) (r : Fin 5000) :
    (iblk1 V c 1 t : FVec Ideal S5000x1 .f32) (ix2 r (0 : Fin 1))
      = (V c main_v29 : FVec Ideal Cert.ReferenceIdeal.S50000x1 .f32) (ix2 (rowOf t r) (0 : Fin 1)) := by
  obtain ⟨-, -, e0, e1, -⟩ := block_indices t
  show V c main_v29 (((cfg1.win 1).blk t).view.emb (ix2 r (0 : Fin 1))) = V c main_v29 (ix2 (rowOf t r) (0 : Fin 1))
  refine congrArg (V c main_v29) (funext fun a => Fin.ext ?_)
  match a with
  | ⟨0, _⟩ => show win1_1.index t (0 : Fin 2) * 5000 + 1 * r.val = 5000 * t.val + r.val; rw [e0]; omega
  | ⟨1, _⟩ => show win1_1.index t (1 : Fin 2) * 1 + 1 * 0 = 0; rw [e1]

/-- Block `t` of the features, read at `(r, k)`. -/
theorem feat_block (c : Dev nD) (t : Fin cfg1.N) (r : Fin 5000) (k : Fin 64) :
    (iblk1 V c 2 t : FVec Ideal S5000x64 .f32) (ix2 r k)
      = (V c main_v20 : FVec Ideal Cert.ReferenceIdeal.S50000x64 .f32) (ix2 (rowOf t r) k) := by
  obtain ⟨-, -, -, -, e0, e1, -⟩ := block_indices t
  show V c main_v20 (((cfg1.win 2).blk t).view.emb (ix2 r k)) = V c main_v20 (ix2 (rowOf t r) k)
  refine congrArg (V c main_v20) (funext fun a => Fin.ext ?_)
  match a with
  | ⟨0, _⟩ => show win1_2.index t (0 : Fin 2) * 5000 + 1 * r.val = 5000 * t.val + r.val; rw [e0]; omega
  | ⟨1, _⟩ => show win1_2.index t (1 : Fin 2) * 64 + 1 * k.val = k.val; rw [e1]; omega

/-- The left weight matrix's one block is the matrix. -/
theorem wl_block (c : Dev nD) (t : Fin cfg1.N) (k : Fin 64) (q : Fin 16) :
    (iblk1 V c 3 t : FVec Ideal S64x16 .f32) (ix2 k q)
      = (V c main_v40 : FVec Ideal Cert.ReferenceIdeal.S64x16 .f32) (ix2 k q) := by
  obtain ⟨-, -, -, -, -, -, e0, e1, -⟩ := block_indices t
  show V c main_v40 (((cfg1.win 3).blk t).view.emb (ix2 k q)) = V c main_v40 (ix2 k q)
  refine congrArg (V c main_v40) (funext fun a => Fin.ext ?_)
  match a with
  | ⟨0, _⟩ => show win1_3.index t (0 : Fin 2) * 64 + 1 * k.val = k.val; rw [e0]; omega
  | ⟨1, _⟩ => show win1_3.index t (1 : Fin 2) * 16 + 1 * q.val = q.val; rw [e1]; omega

/-- The bias row's one block is the row. -/
theorem bias_block (c : Dev nD) (t : Fin cfg1.N) (q : Fin 16) :
    (iblk1 V c 4 t : FVec Ideal S1x16 .f32) (ix2 (0 : Fin 1) q)
      = (V c main_v42 : FVec Ideal Cert.ReferenceIdeal.S1x16 .f32) (ix2 (0 : Fin 1) q) := by
  obtain ⟨-, -, -, -, -, -, -, -, e0, e1, -⟩ := block_indices t
  show V c main_v42 (((cfg1.win 4).blk t).view.emb (ix2 (0 : Fin 1) q)) = V c main_v42 (ix2 (0 : Fin 1) q)
  refine congrArg (V c main_v42) (funext fun a => Fin.ext ?_)
  match a with
  | ⟨0, _⟩ => show win1_4.index t (0 : Fin 2) * 1 + 1 * 0 = 0; rw [e0]
  | ⟨1, _⟩ => show win1_4.index t (1 : Fin 2) * 16 + 1 * q.val = q.val; rw [e1]; omega

/-- The right weight matrix's one block is the matrix. -/
theorem wr_block (c : Dev nD) (t : Fin cfg1.N) (k : Fin 64) (q : Fin 16) :
    (iblk1 V c 5 t : FVec Ideal S64x16 .f32) (ix2 k q)
      = (V c main_v41 : FVec Ideal Cert.ReferenceIdeal.S64x16 .f32) (ix2 k q) := by
  obtain ⟨-, -, -, -, -, -, -, -, -, -, e0, e1, -⟩ := block_indices t
  show V c main_v41 (((cfg1.win 5).blk t).view.emb (ix2 k q)) = V c main_v41 (ix2 k q)
  refine congrArg (V c main_v41) (funext fun a => Fin.ext ?_)
  match a with
  | ⟨0, _⟩ => show win1_5.index t (0 : Fin 2) * 64 + 1 * k.val = k.val; rw [e0]; omega
  | ⟨1, _⟩ => show win1_5.index t (1 : Fin 2) * 16 + 1 * q.val = q.val; rw [e1]; omega

/-- The layer over the arrays the stage is entered with. -/
abbrev layerOut (c : Dev nD) : FVec Ideal Cert.ReferenceIdeal.S50000x16 .f32 :=
  Cert.Sage.layer1 (Cert.Sage.meanMul64 (V c main_v39) (V c main_v29)) (V c main_v20) (V c main_v40) (V c main_v42)
    (V c main_v41)

/-- WHAT POINT `t` WRITES BACK is row block `t` of the layer. -/
theorem written_block (c : Dev nD) (t : Fin cfg1.N) :
    (dat1 (F := Ideal) V c).flushed 6 t = ((cfg1.win 6).blk t).view.read (Elt Ideal) (layerOut V c) := by
  show (cfg1.win 6).cut (grid1.coords t) ((dat1 V c).after 6 t) = _
  rw [after1_6]
  unfold out1_6
  rw [View.canon_unit_zero zero_offsets]
  simp only [View.ld_unit_zero (S := S5000x64) zero_offsets, View.ld_unit_zero (S := S5000x1) zero_offsets,
    View.ld_unit_zero (S := S64x16) zero_offsets, View.ld_unit_zero (S := S1x16) zero_offsets]
  obtain ⟨-, -, -, -, -, -, -, -, -, -, -, -, e0, e1⟩ := block_indices t
  refine funext fun (j : S5000x16.Idx) => ?_
  obtain ⟨p, q, rfl⟩ : ∃ (p : Fin 5000) (q : Fin 16), j = ix2 p q := ⟨j 0, j 1, eq_ix2 j⟩
  show k1_pay1 (F := Ideal) (iblk1 V c 0 t) (iblk1 V c 1 t) (iblk1 V c 2 t) (iblk1 V c 3 t) (iblk1 V c 5 t) (iblk1 V c 4 t) (ix2 p q)
    = layerOut V c (((cfg1.win 6).blk t).view.emb (ix2 p q))
  have hi : ((cfg1.win 6).blk t).view.emb (ix2 p q) = ix2 (rowOf t p) q := by
    refine funext fun a => Fin.ext ?_
    match a with
    | ⟨0, _⟩ => show win1_6.index t (0 : Fin 2) * 5000 + 1 * p.val = 5000 * t.val + p.val; rw [e0]; omega
    | ⟨1, _⟩ => show win1_6.index t (1 : Fin 2) * 16 + 1 * q.val = q.val; rw [e1]; omega
  exact (tile_row (iblk1 V c 0 t) (iblk1 V c 1 t) (iblk1 V c 2 t) (iblk1 V c 3 t) (iblk1 V c 5 t) (iblk1 V c 4 t)
    (V c main_v39) (V c main_v29) (V c main_v20) (V c main_v40) (V c main_v41) (V c main_v42) (rowOf t)
    (sums_block V c t) (factor_block V c t) (feat_block V c t) (wl_block V c t) (wr_block V c t) (bias_block V c t)
    p q).trans (congrArg (layerOut V c) hi.symm)

/-- An index of the array is in point `t`'s block iff each coordinate is in the block's range on its axis. -/
theorem mem_block (t : Fin cfg1.N) (i : S50000x16.Idx) :
    i ∈ ((cfg1.win 6).blk t).view.set ↔ ∀ a : Fin 2, win1_6.index t a * S5000x16.size a ≤ (i a).val
      ∧ (i a).val < win1_6.index t a * S5000x16.size a + S5000x16.size a := by
  show i ∈ ((View.whole main_v43).slice (win1_6.rect t)).set ↔ _
  rw [View.set_slice_whole, Rect.mem_set_unit]
  exact Iff.rfl

/-- THE COVER: row `n` of the array is in the block of point `n / 5000`. -/
theorem covered (i : S50000x16.Idx) :
    ∃ t : Fin cfg1.N, (cfg1.win 6).flush t = true ∧ i ∈ ((cfg1.win 6).blk t).view.set := by
  have hi0 : (i 0).val < 50000 := (i 0).isLt
  have hi1 : (i 1).val < 16 := (i 1).isLt
  have hN : grid1.N = 10 := N_1
  have ht : (i 0).val / 5000 < cfg1.N := by show (i 0).val / 5000 < grid1.N; rw [hN]; omega
  obtain ⟨-, -, -, -, -, -, -, -, -, -, -, -, e0, e1⟩ := block_indices ⟨(i 0).val / 5000, ht⟩
  have e0' : win1_6.index ⟨(i 0).val / 5000, ht⟩ (0 : Fin 2) = (i 0).val / 5000 := e0
  refine ⟨⟨(i 0).val / 5000, ht⟩, flush1_6 _, ?_⟩
  rw [mem_block]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0']; omega
  | ⟨1, _⟩ =>
    show win1_6.index ⟨(i 0).val / 5000, ht⟩ (1 : Fin 2) * 16 ≤ (i 1).val
      ∧ (i 1).val < win1_6.index ⟨(i 0).val / 5000, ht⟩ (1 : Fin 2) * 16 + 16
    rw [e1]; omega

/-- After the second stage its output array holds `layer1` of the scaled sums and of the arrays the stage was
    entered with. -/
theorem region1_array (c : Dev nD) :
    (dat1 (F := Ideal) V c).arrAt 6 cfg1.N
      = Cert.Sage.layer1 (Cert.Sage.meanMul64 (V c main_v39) (V c main_v29)) (V c main_v20) (V c main_v40) (V c main_v42)
          (V c main_v41) :=
  (dat1 V c).arrAt_eq_of_cover 6 (layerOut V c) (fun t _ => written_block V c t) covered

end Cert.KernelIdeal.Hand1

end
-- ==== Proof.Region2.lean ====
/-
  The third tiled stage, read as one array.

  Grid point `t` takes rows `5000 t … 5000 t + 4999` of the neighbourhood sums, of the per-row factor (a column) and
  of the first layer's output, multiplies each sum row by its factor, forms `max (mean · Wl + b + h · Wr) 0` and maps
  it to one column by `· Wlin + blin`. The ten row blocks tile the array, so after the stage the array is
  `Cert.Sage.layer2` of the mean `Cert.Sage.meanMul16` and of the arrays the stage found.
-/
import proofs.«137122_j57741540328069_1_alg».proof.Proof.Gen.KernelIdeal.Frame
import proofs.«137122_j57741540328069_1_alg».proof.Proof.SageSpec
import proofs.«137122_j57741540328069_1_alg».proof.Proof.LibAffineRows
import proofs.«137122_j57741540328069_1_alg».proof.Proof.LibMeanRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand2

open Cert.KernelIdeal Cert.KernelIdeal.Gen

variable (V : (c : Dev nD) → (b : Ref sig .tc) → Buf (Elt Ideal) ((c : Thread nD τ).loc b))

/-! ## The four products are plain matrix products

A tile's `[5000, 16] · [16, 32]` and `[5000, 32] · [32, 1]`, and the whole arrays' `[50000, 16] · [16, 32]` and
`[50000, 32] · [32, 1]`: in each the one contracted index is the left operand's column and the right operand's row. -/

theorem lhs_tile16_0 (i : S5000x32.Idx) (q : dot_S5000x16_S16x32_S5000x32_1_0_0_1_n_n.contr.Idx) :
    (dot_S5000x16_S16x32_S5000x32_1_0_0_1_n_n.lhsIdx i q 0).val = (i 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
theorem lhs_tile16_1 (i : S5000x32.Idx) (q : dot_S5000x16_S16x32_S5000x32_1_0_0_1_n_n.contr.Idx) :
    (dot_S5000x16_S16x32_S5000x32_1_0_0_1_n_n.lhsIdx i q 1).val = (q ⟨0, by decide⟩).val :=
  dot_S5000x16_S16x32_S5000x32_1_0_0_1_n_n.lhsIdx_val_of_single rfl i q
theorem rhs_tile16_0 (i : S5000x32.Idx) (q : dot_S5000x16_S16x32_S5000x32_1_0_0_1_n_n.contr.Idx) :
    (dot_S5000x16_S16x32_S5000x32_1_0_0_1_n_n.rhsIdx i q 0).val = (q ⟨0, by decide⟩).val :=
  dot_S5000x16_S16x32_S5000x32_1_0_0_1_n_n.rhsIdx_val_of_single rfl i q
theorem rhs_tile16_1 (i : S5000x32.Idx) (q : dot_S5000x16_S16x32_S5000x32_1_0_0_1_n_n.contr.Idx) :
    (dot_S5000x16_S16x32_S5000x32_1_0_0_1_n_n.rhsIdx i q 1).val = (i 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl

theorem plain_tile16 : Cert.Lib.PlainDot dot_S5000x16_S16x32_S5000x32_1_0_0_1_n_n :=
  ⟨rfl, rfl, lhs_tile16_0, lhs_tile16_1, rhs_tile16_0, rhs_tile16_1⟩

theorem lhs_tile32_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem lhs_tile32_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
theorem rhs_tile32_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
theorem rhs_tile32_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

theorem plain_tile32 : Cert.Lib.PlainDot dot_S5000x32_S32x1_S5000x1_1_0_0_1_n_n :=
  ⟨rfl, rfl, lhs_tile32_0, lhs_tile32_1, rhs_tile32_0, rhs_tile32_1⟩

theorem lhs_all16_0 (i : Cert.ReferenceIdeal.S50000x32.Idx) (q : Cert.ReferenceIdeal.dot_S50000x16_S16x32_S50000x32_1_0_0_1_n_n.contr.Idx) :
    (Cert.ReferenceIdeal.dot_S50000x16_S16x32_S50000x32_1_0_0_1_n_n.lhsIdx i q 0).val = (i 0).val := by
  unfold DotDims.lhsIdx
  rw [dif_neg (show ¬(0 : Fin Cert.ReferenceIdeal.S50000x16.rank) ∈ Cert.ReferenceIdeal.dot_S50000x16_S16x32_S50000x32_1_0_0_1_n_n.lhsBatch by decide), dif_pos (show (0 : Fin Cert.ReferenceIdeal.S50000x16.rank) ∈ Cert.ReferenceIdeal.dot_S50000x16_S16x32_S50000x32_1_0_0_1_n_n.lhsNonContracting by decide)]
  rfl
theorem lhs_all16_1 (i : Cert.ReferenceIdeal.S50000x32.Idx) (q : Cert.ReferenceIdeal.dot_S50000x16_S16x32_S50000x32_1_0_0_1_n_n.contr.Idx) :
    (Cert.ReferenceIdeal.dot_S50000x16_S16x32_S50000x32_1_0_0_1_n_n.lhsIdx i q 1).val = (q ⟨0, by decide⟩).val :=
  Cert.ReferenceIdeal.dot_S50000x16_S16x32_S50000x32_1_0_0_1_n_n.lhsIdx_val_of_single rfl i q
theorem rhs_all16_0 (i : Cert.ReferenceIdeal.S50000x32.Idx) (q : Cert.ReferenceIdeal.dot_S50000x16_S16x32_S50000x32_1_0_0_1_n_n.contr.Idx) :
    (Cert.ReferenceIdeal.dot_S50000x16_S16x32_S50000x32_1_0_0_1_n_n.rhsIdx i q 0).val = (q ⟨0, by decide⟩).val :=
  Cert.ReferenceIdeal.dot_S50000x16_S16x32_S50000x32_1_0_0_1_n_n.rhsIdx_val_of_single rfl i q
theorem rhs_all16_1 (i : Cert.ReferenceIdeal.S50000x32.Idx) (q : Cert.ReferenceIdeal.dot_S50000x16_S16x32_S50000x32_1_0_0_1_n_n.contr.Idx) :
    (Cert.ReferenceIdeal.dot_S50000x16_S16x32_S50000x32_1_0_0_1_n_n.rhsIdx i q 1).val = (i 1).val := by
  unfold DotDims.rhsIdx
  rw [dif_neg (show ¬(1 : Fin Cert.ReferenceIdeal.S16x32.rank) ∈ Cert.ReferenceIdeal.dot_S50000x16_S16x32_S50000x32_1_0_0_1_n_n.rhsBatch by decide), dif_pos (show (1 : Fin Cert.ReferenceIdeal.S16x32.rank) ∈ Cert.ReferenceIdeal.dot_S50000x16_S16x32_S50000x32_1_0_0_1_n_n.rhsNonContracting by decide)]
  rfl

theorem plain_all16 : Cert.Lib.PlainDot Cert.ReferenceIdeal.dot_S50000x16_S16x32_S50000x32_1_0_0_1_n_n :=
  ⟨rfl, rfl, lhs_all16_0, lhs_all16_1, rhs_all16_0, rhs_all16_1⟩

theorem lhs_all32_0 (i : Cert.ReferenceIdeal.S50000x1.Idx) (q : Cert.ReferenceIdeal.dot_S50000x32_S32x1_S50000x1_1_0_0_1_n_n.contr.Idx) :
    (Cert.ReferenceIdeal.dot_S50000x32_S32x1_S50000x1_1_0_0_1_n_n.lhsIdx i q 0).val = (i 0).val := by
  unfold DotDims.lhsIdx
  rw [dif_neg (show ¬(0 : Fin Cert.ReferenceIdeal.S50000x32.rank) ∈ Cert.ReferenceIdeal.dot_S50000x32_S32x1_S50000x1_1_0_0_1_n_n.lhsBatch by decide), dif_pos (show (0 : Fin Cert.ReferenceIdeal.S50000x32.rank) ∈ Cert.ReferenceIdeal.dot_S50000x32_S32x1_S50000x1_1_0_0_1_n_n.lhsNonContracting by decide)]
  rfl
theorem lhs_all32_1 (i : Cert.ReferenceIdeal.S50000x1.Idx) (q : Cert.ReferenceIdeal.dot_S50000x32_S32x1_S50000x1_1_0_0_1_n_n.contr.Idx) :
    (Cert.ReferenceIdeal.dot_S50000x32_S32x1_S50000x1_1_0_0_1_n_n.lhsIdx i q 1).val = (q ⟨0, by decide⟩).val :=
  Cert.ReferenceIdeal.dot_S50000x32_S32x1_S50000x1_1_0_0_1_n_n.lhsIdx_val_of_single rfl i q
theorem rhs_all32_0 (i : Cert.ReferenceIdeal.S50000x1.Idx) (q : Cert.ReferenceIdeal.dot_S50000x32_S32x1_S50000x1_1_0_0_1_n_n.contr.Idx) :
    (Cert.ReferenceIdeal.dot_S50000x32_S32x1_S50000x1_1_0_0_1_n_n.rhsIdx i q 0).val = (q ⟨0, by decide⟩).val :=
  Cert.ReferenceIdeal.dot_S50000x32_S32x1_S50000x1_1_0_0_1_n_n.rhsIdx_val_of_single rfl i q
theorem rhs_all32_1 (i : Cert.ReferenceIdeal.S50000x1.Idx) (q : Cert.ReferenceIdeal.dot_S50000x32_S32x1_S50000x1_1_0_0_1_n_n.contr.Idx) :
    (Cert.ReferenceIdeal.dot_S50000x32_S32x1_S50000x1_1_0_0_1_n_n.rhsIdx i q 1).val = (i 1).val := by
  unfold DotDims.rhsIdx
  rw [dif_neg (show ¬(1 : Fin Cert.ReferenceIdeal.S32x1.rank) ∈ Cert.ReferenceIdeal.dot_S50000x32_S32x1_S50000x1_1_0_0_1_n_n.rhsBatch by decide), dif_pos (show (1 : Fin Cert.ReferenceIdeal.S32x1.rank) ∈ Cert.ReferenceIdeal.dot_S50000x32_S32x1_S50000x1_1_0_0_1_n_n.rhsNonContracting by decide)]
  rfl

theorem plain_all32 : Cert.Lib.PlainDot Cert.ReferenceIdeal.dot_S50000x32_S32x1_S50000x1_1_0_0_1_n_n :=
  ⟨rfl, rfl, lhs_all32_0, lhs_all32_1, rhs_all32_0, rhs_all32_1⟩

/-! ## Two layout laws -/

/-- A column `[a, 1]` spread over `b` columns reads, at `(p, c)`, the column at row `p`. -/
theorem spread_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, M]` repeated over `N` rows reads, at `(n, q)`, the row at column `q`. -/
theorem repeat_row_apply {α : Type} {N M : ℕ} (v : (⟨2, ![1, M]⟩ : Shape).Idx → α)
    (h : (⟨2, ![1, M]⟩ : Shape).BroadcastsInDim ⟨2, ![N, M]⟩ (![0, 1] : Fin 2 → Fin 2)) (n : Fin N) (q : Fin M) :
    broadcastInDim ⟨2, ![N, M]⟩ ![0, 1] h v (ix2 n q) = v (ix2 (0 : Fin 1) q) :=
  broadcastInDim_apply _ h v (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])

/-! ## The stage's arithmetic, row by row

`n` sends a tile's row to the row of the whole array it holds. -/

/-- Row `r` of the tile's sums times the tile's factor column is row `n r` of the whole mean. -/
theorem mean_rows (x0 : FVec Ideal S5000x16 .f32) (x1 : FVec Ideal S5000x1 .f32)
    (AGG : FVec Ideal Cert.ReferenceIdeal.S50000x16 .f32) (INV : FVec Ideal Cert.ReferenceIdeal.S50000x1 .f32)
    (n : Fin 5000 → Fin 50000)
    (h0 : ∀ r k, x0 (ix2 r k) = AGG (ix2 (n r) k))
    (h1 : ∀ r, x1 (ix2 r (0 : Fin 1)) = INV (ix2 (n r) (0 : Fin 1)))
    (hs0 : S5000x16.ShapeCasts S5000x16) (hs1 : S5000x1.ShapeCasts S5000x1) (hb1 : S5000x1.Broadcasts S5000x16)
    (r : Fin 5000) (k : Fin 16) :
    mulf (shapeCast S5000x16 x0 hs0) (broadcastTo S5000x16 (shapeCast S5000x1 x1 hs1) hb1) (ix2 r k)
      = Cert.Sage.meanMul16 AGG INV (ix2 (n r) k) := by
  unfold Cert.Sage.meanMul16
  rw [mulf_apply, mulf_apply, shapeCast_self, shapeCast_self, spread_col_apply, Cert.Lib.bcast_col_apply, h0, h1]

/-- Row `r` of the tile's hidden layer `max (m · Wl + b + h · Wr) 0` is row `n r` of the whole one, as soon as rows `r`
    of the tile's mean `m` and features `h` are rows `n r` of the whole mean and features. -/
theorem hidden_rows (m x2 : FVec Ideal S5000x16 .f32) (Wl Wr : FVec Ideal S16x32 .f32) (B : FVec Ideal S1x32 .f32)
    (MEAN X : FVec Ideal Cert.ReferenceIdeal.S50000x16 .f32) (n : Fin 5000 → Fin 50000)
    (hm : ∀ r k, m (ix2 r k) = MEAN (ix2 (n r) k)) (h2 : ∀ r k, x2 (ix2 r k) = X (ix2 (n r) k))
    (ht : FTy.bits .bf16 < FTy.bits .f32) (hs2 : S5000x16.ShapeCasts S5000x16) (hsw : S16x32.ShapeCasts S16x32)
    (hsb : S1x32.ShapeCasts S1x32) (hbb : S1x32.Broadcasts S5000x32)
    (hB : Cert.ReferenceIdeal.S1x32.BroadcastsInDim Cert.ReferenceIdeal.S50000x32 (![0, 1] : Fin 2 → Fin 2))
    (hZ : Cert.ReferenceIdeal.S_.BroadcastsInDim Cert.ReferenceIdeal.S50000x32 (![] : Fin 0 → Fin 2))
    (r : Fin 5000) (j : Fin 32) :
    maximumf (addf (addf (matmul dot_S5000x16_S16x32_S5000x32_1_0_0_1_n_n none (truncf .bf16 m ht)
            (truncf .bf16 (shapeCast S16x32 Wl hsw) ht) (constant S5000x32 .f32 0x00000000#32))
          (broadcastTo S5000x32 (shapeCast S1x32 B hsb) hbb))
        (matmul dot_S5000x16_S16x32_S5000x32_1_0_0_1_n_n none (truncf .bf16 (shapeCast S5000x16 x2 hs2) ht)
          (truncf .bf16 (shapeCast S16x32 Wr hsw) ht) (constant S5000x32 .f32 0x00000000#32)))
      (broadcast S5000x32 (Scalar.ofBits .f32 0x00000000#32)) (ix2 r j)
    = maximumf (addf (addf (Host.dotGeneral Cert.ReferenceIdeal.dot_S50000x16_S16x32_S50000x32_1_0_0_1_n_n none MEAN Wl)
          (broadcastInDim Cert.ReferenceIdeal.S50000x32 ![0, 1] hB B))
        (Host.dotGeneral Cert.ReferenceIdeal.dot_S50000x16_S16x32_S50000x32_1_0_0_1_n_n none X Wr))
      (broadcastInDim Cert.ReferenceIdeal.S50000x32 ![] hZ (constant (F := Ideal) Cert.ReferenceIdeal.S_ .f32 0x00000000#32)) (ix2 (n r) j) := by
  rw [maximumf_apply, maximumf_apply, addf_apply, addf_apply, addf_apply, addf_apply,
    Cert.Lib.matmul_zero_apply plain_tile16, Cert.Lib.matmul_zero_apply plain_tile16,
    Cert.Lib.dotGeneral_apply plain_all16, Cert.Lib.dotGeneral_apply plain_all16,
    broadcastTo_1b_ab_apply, repeat_row_apply, shapeCast_self, shapeCast_self, shapeCast_self, shapeCast_self,
    broadcast_apply, broadcastInDim_apply _ hZ _ _ ix0 (fun a => a.elim0), constant_apply]
  simp only [hm, h2]
  rfl

/-- Row `r` of the tile's `H · Wlin + blin` is row `n r` of the whole one, as soon as rows `r` of the tile's `H` are rows
    `n r` of the whole `H`. -/
theorem out_rows (H : FVec Ideal S5000x32 .f32) (Wlin : FVec Ideal S32x1 .f32) (Blin : FVec Ideal S1x1 .f32)
    (HH : FVec Ideal Cert.ReferenceIdeal.S50000x32 .f32) (n : Fin 5000 → Fin 50000)
    (hH : ∀ r j, H (ix2 r j) = HH (ix2 (n r) j))
    (ht : FTy.bits .bf16 < FTy.bits .f32) (hsw : S32x1.ShapeCasts S32x1) (hsb : S1x1.ShapeCasts S1x1)
    (hbb : S1x1.Broadcasts S5000x1)
    (hB : Cert.ReferenceIdeal.S1x1.BroadcastsInDim Cert.ReferenceIdeal.S50000x1 (![0, 1] : Fin 2 → Fin 2))
    (r : Fin 5000) :
    addf (matmul dot_S5000x32_S32x1_S5000x1_1_0_0_1_n_n none (truncf .bf16 H ht) (truncf .bf16 (shapeCast S32x1 Wlin hsw) ht)
          (constant S5000x1 .f32 0x00000000#32))
        (broadcastTo S5000x1 (shapeCast S1x1 Blin hsb) hbb) (ix2 r (0 : Fin 1))
    = addf (Host.dotGeneral Cert.ReferenceIdeal.dot_S50000x32_S32x1_S50000x1_1_0_0_1_n_n none HH Wlin)
        (broadcastInDim Cert.ReferenceIdeal.S50000x1 ![0, 1] hB Blin) (ix2 (n r) (0 : Fin 1)) := by
  rw [addf_apply, addf_apply, Cert.Lib.matmul_zero_apply plain_tile32, Cert.Lib.dotGeneral_apply plain_all32,
    broadcastTo_1b_ab_apply, repeat_row_apply, shapeCast_self, shapeCast_self]
  simp only [hH]

/-- THE STAGE'S ARITHMETIC AT A ROW. Where rows `r` of the tile's sums, factor column and features are rows `n r` of
    the whole arrays, the body's result at `(r, 0)` is the second layer of the whole arrays at `(n r, 0)`. -/
theorem stage_at_row (x0 : FVec Ideal S5000x16 .f32) (x1 : FVec Ideal S5000x1 .f32) (x2 : FVec Ideal S5000x16 .f32)
    (Wl Wr : FVec Ideal S16x32 .f32) (B : FVec Ideal S1x32 .f32) (Wlin : FVec Ideal S32x1 .f32) (Blin : FVec Ideal S1x1 .f32)
    (AGG : FVec Ideal Cert.ReferenceIdeal.S50000x16 .f32) (INV : FVec Ideal Cert.ReferenceIdeal.S50000x1 .f32)
    (X : FVec Ideal Cert.ReferenceIdeal.S50000x16 .f32) (n : Fin 5000 → Fin 50000)
    (h0 : ∀ r k, x0 (ix2 r k) = AGG (ix2 (n r) k))
    (h1 : ∀ r, x1 (ix2 r (0 : Fin 1)) = INV (ix2 (n r) (0 : Fin 1)))
    (h2 : ∀ r k, x2 (ix2 r k) = X (ix2 (n r) k)) (r : Fin 5000) :
    k2_pay1 (F := Ideal) x0 x1 x2 Wl Wr B Wlin Blin (ix2 r (0 : Fin 1))
      = Cert.Sage.layer2 (Cert.Sage.meanMul16 AGG INV) X Wl B Wr Wlin Blin (ix2 (n r) (0 : Fin 1)) := by
  unfold k2_pay1 Cert.Sage.layer2
  exact out_rows _ Wlin Blin _ n
    (fun r j => hidden_rows _ x2 Wl Wr B _ X n (fun r k => mean_rows x0 x1 AGG INV n h0 h1 _ _ _ r k) h2 _ _ _ _ _ _ _ r j)
    _ _ _ _ _ r

/-- The same at every index of the tile's one-column result, the tile's five small operands being the whole ones. -/
theorem stage_on_tile (x0 : FVec Ideal S5000x16 .f32) (x1 : FVec Ideal S5000x1 .f32) (x2 : FVec Ideal S5000x16 .f32)
    (x3 x5 : FVec Ideal S16x32 .f32) (x4 : FVec Ideal S1x32 .f32) (x6 : FVec Ideal S32x1 .f32) (x7 : FVec Ideal S1x1 .f32)
    (Wl Wr : FVec Ideal S16x32 .f32) (B : FVec Ideal S1x32 .f32) (Wlin : FVec Ideal S32x1 .f32) (Blin : FVec Ideal S1x1 .f32)
    (AGG : FVec Ideal Cert.ReferenceIdeal.S50000x16 .f32) (INV : FVec Ideal Cert.ReferenceIdeal.S50000x1 .f32)
    (X : FVec Ideal Cert.ReferenceIdeal.S50000x16 .f32) (n : Fin 5000 → Fin 50000)
    (h0 : ∀ r k, x0 (ix2 r k) = AGG (ix2 (n r) k))
    (h1 : ∀ r, x1 (ix2 r (0 : Fin 1)) = INV (ix2 (n r) (0 : Fin 1)))
    (h2 : ∀ r k, x2 (ix2 r k) = X (ix2 (n r) k))
    (h3 : x3 = Wl) (h4 : x4 = B) (h5 : x5 = Wr) (h6 : x6 = Wlin) (h7 : x7 = Blin) (y : S5000x1.Idx) :
    k2_pay1 (F := Ideal) x0 x1 x2 x3 x5 x4 x6 x7 y
      = Cert.Sage.layer2 (Cert.Sage.meanMul16 AGG INV) X Wl B Wr Wlin Blin (ix2 (n ⟨(y 0).val, idx2_lt0 y⟩) (0 : Fin 1)) := by
  subst h3 h4 h5 h6 h7
  obtain ⟨r, q, rfl⟩ : ∃ (r : Fin 5000) (q : Fin 1), y = ix2 r q := ⟨y 0, y 1, eq_ix2 y⟩
  obtain rfl : q = 0 := Subsingleton.elim _ _
  exact stage_at_row x0 x1 x2 x3 x5 x4 x6 x7 AGG INV X n h0 h1 h2 r

/-! ## From the ten row blocks to the array -/

theorem origin_zero : (![0, 0] : Fin 2 → Nat) = fun _ => 0 := funext fun a => by fin_cases a <;> rfl

/-- The second layer of the arrays the stage is entered with. -/
abbrev whole2 (c : Dev nD) : Cert.ReferenceIdeal.S50000x1.Idx → EReal :=
  Cert.Sage.layer2 (Cert.Sage.meanMul16 (V c main_v53) (V c main_v29)) (V c main_v43) (V c main_v54) (V c main_v56)
    (V c main_v55) (V c main_v57) (V c main_v58)

/-- The row of the whole arrays that row `r` of point `t`'s tiles holds. -/
def rowOf (t : Fin cfg2.N) (r : Fin 5000) : Fin 50000 :=
  ⟨t.val * 5000 + r.val, by have := t.isLt; have hN : cfg2.N = 10 := N_2; have := r.isLt; omega⟩

/-- The printed index maps over the grid: the three row-tiled inputs and the output are at row block `t`, column
    block `0`; the five small operands are whole, at block `(0, 0)`. -/
theorem block_indices : ∀ t : Fin cfg2.N,
    win2_8.index t (0 : Fin 2) = t.val ∧ win2_8.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- WHAT POINT `t` WRITES BACK is block `t` of the second layer of the arrays the stage is entered with. -/
theorem point_writes_layer2 (c : Dev nD) (t : Fin cfg2.N) :
    (dat2 (F := Ideal) V c).flushed 8 t = ((cfg2.win 8).blk t).view.read (Elt Ideal) (whole2 V c) := by
  show (cfg2.win 8).cut (grid2.coords t) ((dat2 (F := Ideal) V c).after 8 t) = _
  rw [after2_8]
  unfold out2_8
  rw [View.canon_unit_zero origin_zero]
  simp only [View.ld_unit_zero (S := S5000x16) origin_zero, View.ld_unit_zero (S := S5000x1) origin_zero,
    View.ld_unit_zero (S := S16x32) origin_zero, View.ld_unit_zero (S := S1x32) origin_zero,
    View.ld_unit_zero (S := S32x1) origin_zero, View.ld_unit_zero (S := S1x1) origin_zero]
  obtain ⟨e80, e81, e00, e01, e10, e11, e20, e21, e30, e31, e40, e41, e50, e51, e60, e61, e70, e71⟩ := block_indices t
  have h3 : iblk2 V c 3 t = V c main_v54 := by
    funext y
    show V c main_v54 (((cfg2.win 3).blk t).view.emb y) = V c main_v54 y
    refine congrArg _ (funext fun a => Fin.ext ?_)
    match a with
    | ⟨0, _⟩ => show win2_3.index t (0 : Fin 2) * 16 + 1 * (y 0).val = (y 0).val; omega
    | ⟨1, _⟩ => show win2_3.index t (1 : Fin 2) * 32 + 1 * (y 1).val = (y 1).val; omega
  have h4 : iblk2 V c 4 t = V c main_v56 := by
    funext y
    show V c main_v56 (((cfg2.win 4).blk t).view.emb y) = V c main_v56 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 32 + 1 * (y 1).val = (y 1).val; omega
  have h5 : iblk2 V c 5 t = V c main_v55 := by
    funext y
    show V c main_v55 (((cfg2.win 5).blk t).view.emb y) = V c main_v55 y
    refine congrArg _ (funext fun a => Fin.ext ?_)
    match a with
    | ⟨0, _⟩ => show win2_5.index t (0 : Fin 2) * 16 + 1 * (y 0).val = (y 0).val; omega
    | ⟨1, _⟩ => show win2_5.index t (1 : Fin 2) * 32 + 1 * (y 1).val = (y 1).val; omega
  have h6 : iblk2 V c 6 t = V c main_v57 := by
    funext y
    show V c main_v57 (((cfg2.win 6).blk t).view.emb y) = V c main_v57 y
    refine congrArg _ (funext fun a => Fin.ext ?_)
    match a with
    | ⟨0, _⟩ => show win2_6.index t (0 : Fin 2) * 32 + 1 * (y 0).val = (y 0).val; omega
    | ⟨1, _⟩ => show win2_6.index t (1 : Fin 2) * 1 + 1 * (y 1).val = (y 1).val; omega
  have h7 : iblk2 V c 7 t = V c main_v58 := by
    funext y
    show V c main_v58 (((cfg2.win 7).blk t).view.emb y) = V c main_v58 y
    refine congrArg _ (funext fun a => Fin.ext ?_)
    match a with
    | ⟨0, _⟩ => show win2_7.index t (0 : Fin 2) * 1 + 1 * (y 0).val = (y 0).val; omega
    | ⟨1, _⟩ => show win2_7.index t (1 : Fin 2) * 1 + 1 * (y 1).val = (y 1).val; omega
  have h0 : ∀ (r : Fin 5000) (k : Fin 16), iblk2 V c 0 t (ix2 r k) = V c main_v53 (ix2 (rowOf t r) k) := fun r k => by
    show V c main_v53 (((cfg2.win 0).blk t).view.emb (ix2 r k)) = V c main_v53 (ix2 (rowOf t r) k)
    refine congrArg _ (funext fun a => Fin.ext ?_)
    match a with
    | ⟨0, _⟩ => show win2_0.index t (0 : Fin 2) * 5000 + 1 * r.val = t.val * 5000 + r.val; omega
    | ⟨1, _⟩ => show win2_0.index t (1 : Fin 2) * 16 + 1 * k.val = k.val; omega
  have h1 : ∀ (r : Fin 5000), iblk2 V c 1 t (ix2 r (0 : Fin 1)) = V c main_v29 (ix2 (rowOf t r) (0 : Fin 1)) := fun r => by
    show V c main_v29 (((cfg2.win 1).blk t).view.emb (ix2 r (0 : Fin 1))) = V c main_v29 (ix2 (rowOf t r) (0 : Fin 1))
    refine congrArg _ (funext fun a => Fin.ext ?_)
    match a with
    | ⟨0, _⟩ => show win2_1.index t (0 : Fin 2) * 5000 + 1 * r.val = t.val * 5000 + r.val; omega
    | ⟨1, _⟩ => show win2_1.index t (1 : Fin 2) * 1 + 1 * 0 = 0; omega
  have h2 : ∀ (r : Fin 5000) (k : Fin 16), iblk2 V c 2 t (ix2 r k) = V c main_v43 (ix2 (rowOf t r) k) := fun r k => by
    show V c main_v43 (((cfg2.win 2).blk t).view.emb (ix2 r k)) = V c main_v43 (ix2 (rowOf t r) k)
    refine congrArg _ (funext fun a => Fin.ext ?_)
    match a with
    | ⟨0, _⟩ => show win2_2.index t (0 : Fin 2) * 5000 + 1 * r.val = t.val * 5000 + r.val; omega
    | ⟨1, _⟩ => show win2_2.index t (1 : Fin 2) * 16 + 1 * k.val = k.val; omega
  funext y
  refine (stage_on_tile (iblk2 V c 0 t) (iblk2 V c 1 t) (iblk2 V c 2 t) (iblk2 V c 3 t) (iblk2 V c 5 t) (iblk2 V c 4 t)
    (iblk2 V c 6 t) (iblk2 V c 7 t) (V c main_v54) (V c main_v55) (V c main_v56) (V c main_v57) (V c main_v58)
    (V c main_v53) (V c main_v29) (V c main_v43) (rowOf t) h0 h1 h2 h3 h4 h5 h6 h7 y).trans ?_
  show whole2 V c (ix2 (rowOf t ⟨(y 0).val, idx2_lt0 y⟩) (0 : Fin 1)) = whole2 V c (((cfg2.win 8).blk t).view.emb y)
  refine congrArg _ (funext fun a => Fin.ext ?_)
  match a with
  | ⟨0, _⟩ => show t.val * 5000 + (y 0).val = win2_8.index t (0 : Fin 2) * 5000 + 1 * (y 0).val; omega
  | ⟨1, _⟩ =>
    show (0 : ℕ) = win2_8.index t (1 : Fin 2) * 1 + 1 * (y 1).val
    have hy : (y 1).val < 1 := (y 1).isLt
    omega

/-- An index of the array is in point `t`'s block iff each coordinate is in the block's range on its axis. -/
theorem mem_row_block (t : Fin cfg2.N) (i : S50000x1.Idx) :
    i ∈ ((cfg2.win 8).blk t).view.set ↔ ∀ a : Fin 2, win2_8.index t a * S5000x1.size a ≤ (i a).val ∧ (i a).val < win2_8.index t a * S5000x1.size a + S5000x1.size a := by
  show i ∈ ((View.whole main_v59).slice (win2_8.rect t)).set ↔ _
  rw [View.set_slice_whole, Rect.mem_set_unit]
  exact Iff.rfl

/-- THE TEN BLOCKS TILE THE ARRAY: row `i` lies in the block of point `i / 5000`. -/
theorem row_blocks_cover (i : S50000x1.Idx) :
    ∃ t : Fin cfg2.N, (cfg2.win 8).flush t = true ∧ i ∈ ((cfg2.win 8).blk t).view.set := by
  have hi0 : (i 0).val < 50000 := (i 0).isLt
  have hi1 : (i 1).val < 1 := (i 1).isLt
  have hN : cfg2.N = 10 := N_2
  have ht : (i 0).val / 5000 < cfg2.N := by omega
  obtain ⟨e80, e81, -⟩ := block_indices ⟨(i 0).val / 5000, ht⟩
  refine ⟨⟨(i 0).val / 5000, ht⟩, flush2_8 _, ?_⟩
  rw [mem_row_block]
  intro a
  match a with
  | ⟨0, _⟩ =>
    show win2_8.index ⟨(i 0).val / 5000, ht⟩ (0 : Fin 2) * 5000 ≤ (i 0).val
      ∧ (i 0).val < win2_8.index ⟨(i 0).val / 5000, ht⟩ (0 : Fin 2) * 5000 + 5000
    have e : win2_8.index ⟨(i 0).val / 5000, ht⟩ (0 : Fin 2) = (i 0).val / 5000 := e80
    omega
  | ⟨1, _⟩ =>
    show win2_8.index ⟨(i 0).val / 5000, ht⟩ (1 : Fin 2) * 1 ≤ (i 1).val
      ∧ (i 1).val < win2_8.index ⟨(i 0).val / 5000, ht⟩ (1 : Fin 2) * 1 + 1
    omega

/-- After the third stage its output array holds `layer2` of the scaled sums and of the arrays the stage was
    entered with. -/
theorem region2_array (c : Dev nD) :
    (dat2 (F := Ideal) V c).arrAt 8 cfg2.N
      = Cert.Sage.layer2 (Cert.Sage.meanMul16 (V c main_v53) (V c main_v29)) (V c main_v43) (V c main_v54) (V c main_v56)
          (V c main_v55) (V c main_v57) (V c main_v58) :=
  (dat2 (F := Ideal) V c).arrAt_eq_of_cover 8 (whole2 V c) (fun t _ => point_writes_layer2 V c t) row_blocks_cover

end Cert.KernelIdeal.Hand2

end
-- ==== Proof.RefSide.lean ====
/-
  The plain program's result, stage by stage.

  Its run ends with the result at the operations' composed term of the arguments; read one operation at a time, that
  term is the three dense stages of `Cert.Sage` with the host's gather and segment sum between them:
  the 64-column features (`feat_stage`), the first layer over the quotient mean (`mean1_stage`, `layer1_stage`), the
  second layer and the final map over the second quotient mean (`mean2_stage`, `layer2_stage`). Each equation only
  unfolds definitions.
-/
import proofs.«137122_j57741540328069_1_alg».proof.Proof.Gen.ReferenceIdeal.Run
import proofs.«137122_j57741540328069_1_alg».proof.Proof.Gen.ReferenceIdeal.Read
import proofs.«137122_j57741540328069_1_alg».proof.Proof.SageSpec

set_option maxRecDepth 8192

noncomputable section

namespace Cert.Sage.Ref

open Cert.ReferenceIdeal Cert.ReferenceIdeal.Read Idealize.ShloMosaic

/-- The contents of a float, resp. integer, buffer of shape `s` at the ideal values. -/
abbrev TF (s : Shape) := (⟨s, .f32⟩ : BufTy).Contents (Elt Ideal)
abbrev TI (s : Shape) := (⟨s, .i32⟩ : BufTy).Contents (Elt Ideal)

variable (x0 : TF S50000x128) (x1 : TI S2x800000) (x2 x3 : TI S50000) (x4 : TF S32x128) (x5 : TF S32) (x6 : TF S22x16)
  (x7 : TF S96x16) (x8 : TF S16x64) (x9 : TF S16) (x10 : TF S16x64) (x11 : TF S32x16) (x12 : TF S32) (x13 : TF S32x16)
  (x14 : TF S1x32) (x15 : TF S1)

/-- The concatenated features are `feat` of the node features, the two gathered embedding rows, the transposed
    projection and the bias made a row. -/
theorem feat_stage : val_main_v23 (F := Ideal) x0 x2 x3 x4 x5 x6 x7
    = Cert.Sage.feat x0 (val_main_v10 (F := Ideal) x2 x6) (val_main_v17 (F := Ideal) x3 x7) (val_main_v18 (F := Ideal) x4)
        (val_main_v20 (F := Ideal) x5) := rfl

/-- The first mean is the segment sum divided by the count column. -/
theorem mean1_stage : val_main_v42 (F := Ideal) x0 x1 x2 x3 x4 x5 x6 x7
    = Cert.Sage.meanDiv64 (val_main_v33 (F := Ideal) x0 x1 x2 x3 x4 x5 x6 x7) (val_main_v40 (F := Ideal) x1) := rfl

/-- The first layer's output is `layer1` of the first mean and the features. -/
theorem layer1_stage : val_main_v51 (F := Ideal) x0 x1 x2 x3 x4 x5 x6 x7 x8 x9 x10
    = Cert.Sage.layer1 (val_main_v42 (F := Ideal) x0 x1 x2 x3 x4 x5 x6 x7) (val_main_v23 (F := Ideal) x0 x2 x3 x4 x5 x6 x7)
        (val_main_v43 (F := Ideal) x8) (val_main_v45 (F := Ideal) x9) (val_main_v48 (F := Ideal) x10) := rfl

/-- The second mean is the segment sum divided by the count column. -/
theorem mean2_stage : val_main_v70 (F := Ideal) x0 x1 x2 x3 x4 x5 x6 x7 x8 x9 x10
    = Cert.Sage.meanDiv16 (val_main_v61 (F := Ideal) x0 x1 x2 x3 x4 x5 x6 x7 x8 x9 x10) (val_main_v68 (F := Ideal) x1) := rfl

/-- The result is `layer2` of the second mean and the first layer's output. -/
theorem layer2_stage : val_main_v84 (F := Ideal) x0 x1 x2 x3 x4 x5 x6 x7 x8 x9 x10 x11 x12 x13 x14 x15
    = Cert.Sage.layer2 (val_main_v70 (F := Ideal) x0 x1 x2 x3 x4 x5 x6 x7 x8 x9 x10) (val_main_v51 (F := Ideal) x0 x1 x2 x3 x4 x5 x6 x7 x8 x9 x10)
        (val_main_v71 (F := Ideal) x11) (val_main_v73 (F := Ideal) x12) (val_main_v76 (F := Ideal) x13)
        (val_main_v80 (F := Ideal) x14) (val_main_v82 (F := Ideal) x15) := rfl

end Cert.Sage.Ref

end
-- ==== Proof.KChain.lean ====
/-
  The tiled program's buffers, boundary by boundary, as the plain program's stages.

  The tiled program alternates stretches of host operations with its three tiled stages. At each boundary the buffers
  a later stretch or stage reads are, as functions of the launch arguments, exactly the values the plain program's
  operations compute (Cert.ReferenceIdeal.Read.val_main_v…): the edge endpoints, the gathered embedding rows and the
  transposed weights are the same operations on the same arguments; a stage's output array is the dense stage of
  Cert.Sage of the arrays it found (the three stage modules); a bias vector reshaped to a row is the vector broadcast
  to a row; and the neighbourhood mean formed with the reciprocal of max count 1 is the quotient by max count 1.
  Read back through all six boundaries, the result array holds the plain program's result (result_eq).
-/
import proofs.«137122_j57741540328069_1_alg».proof.Proof.Gen.KernelIdeal.Frame
import proofs.«137122_j57741540328069_1_alg».proof.Proof.Region0
import proofs.«137122_j57741540328069_1_alg».proof.Proof.Region1
import proofs.«137122_j57741540328069_1_alg».proof.Proof.Region2
import proofs.«137122_j57741540328069_1_alg».proof.Proof.RefSide
import proofs.«137122_j57741540328069_1_alg».proof.Proof.LibMeanRows
import Idealize.ShloMosaic.Lib.StableHlo.Run

set_option maxRecDepth 16384
-- reading a buffer back through a stretch of some thirty operations rewrites once per operation and reference
set_option maxHeartbeats 8000000

noncomputable section

open Idealize.ShloMosaic Idealize.ShloMosaic.TcCoe Idealize.SL.Sem Idealize.ShloMosaic.StableHlo

namespace Cert.KernelIdeal.Chain

open Cert.KernelIdeal Cert.KernelIdeal.Gen Cert.ReferenceIdeal.Read

variable (m : (ℓ : Loc nD τ sig) → Buf (Elt Ideal) ℓ) (ρ : Dev nD → PrngReg) (c : Dev nD)

set_option quotPrecheck false in
local notation "a0" => m ((c : Thread nD τ).loc main_arg0)
set_option quotPrecheck false in
local notation "a1" => m ((c : Thread nD τ).loc main_arg1)
set_option quotPrecheck false in
local notation "a2" => m ((c : Thread nD τ).loc main_arg2)
set_option quotPrecheck false in
local notation "a3" => m ((c : Thread nD τ).loc main_arg3)
set_option quotPrecheck false in
local notation "a4" => m ((c : Thread nD τ).loc main_arg4)
set_option quotPrecheck false in
local notation "a5" => m ((c : Thread nD τ).loc main_arg5)
set_option quotPrecheck false in
local notation "a6" => m ((c : Thread nD τ).loc main_arg6)
set_option quotPrecheck false in
local notation "a7" => m ((c : Thread nD τ).loc main_arg7)
set_option quotPrecheck false in
local notation "a8" => m ((c : Thread nD τ).loc main_arg8)
set_option quotPrecheck false in
local notation "a9" => m ((c : Thread nD τ).loc main_arg9)
set_option quotPrecheck false in
local notation "a10" => m ((c : Thread nD τ).loc main_arg10)
set_option quotPrecheck false in
local notation "a11" => m ((c : Thread nD τ).loc main_arg11)
set_option quotPrecheck false in
local notation "a12" => m ((c : Thread nD τ).loc main_arg12)
set_option quotPrecheck false in
local notation "a13" => m ((c : Thread nD τ).loc main_arg13)
set_option quotPrecheck false in
local notation "a14" => m ((c : Thread nD τ).loc main_arg14)
set_option quotPrecheck false in
local notation "a15" => m ((c : Thread nD τ).loc main_arg15)

/-- Reads a buffer after a stretch of host operations, operation by operation, down to the contents the stretch
    started from. -/
local macro "read_after" ops:ident : tactic =>
  `(tactic| (show StableHlo.after $ops _ _ = _; after_results))

/-- The weights and biases of the two aggregation layers and of the final map: the arguments that only the second
    and third stretches of host operations read. -/
def lateArgs : List (Ref sig .tc) :=
  [main_arg8, main_arg9, main_arg10, main_arg11, main_arg12, main_arg13, main_arg14, main_arg15]

/-- The per-row factor the tiled program keeps: the reciprocal of the count made at least one, as a column. -/
def invCol (x1 : (⟨Cert.ReferenceIdeal.S2x800000, .i32⟩ : BufTy).Contents (Elt Ideal)) :
    (⟨S50000x1, .f32⟩ : BufTy).Contents (Elt Ideal) :=
  shapeCast S50000x1 (Host.divf (broadcastInDim S50000 ![] bcast_S_S50000 (constant (F := Ideal) S_ .f32 0x3F800000#32))
    (val_main_v39 (F := Ideal) x1)) shapeCasts_S50000_S50000x1

/-! ## After the first stretch of host operations -/

/-- No host operation writes an argument: a late argument is still as launched. -/
theorem W1_arg (b : Ref sig .tc) (hb : b ∈ lateArgs) : W1 m ρ c (Proc.devRef .tc b) = m ((c : Thread nD τ).loc b) := by
  simp only [lateArgs, List.mem_cons, List.mem_singleton, List.not_mem_nil, or_false] at hb
  rcases hb with rfl | rfl | rfl | rfl | rfl | rfl | rfl | rfl <;> read_after hostOps0

theorem W1_arg0 : W1 m ρ c (Proc.devRef .tc main_arg0) = a0 := by
  read_after hostOps0
/-- The edge sources and targets. -/
theorem W1_v1 : W1 m ρ c (Proc.devRef .tc main_v1) = val_main_v1 (F := Ideal) a1 := by
  read_after hostOps0; rfl
theorem W1_v3 : W1 m ρ c (Proc.devRef .tc main_v3) = val_main_v3 (F := Ideal) a1 := by
  read_after hostOps0; rfl
/-- The two gathered embedding rows. -/
theorem W1_v10 : W1 m ρ c (Proc.devRef .tc main_v10) = val_main_v10 (F := Ideal) a2 a6 := by
  read_after hostOps0; rfl
theorem W1_v17 : W1 m ρ c (Proc.devRef .tc main_v17) = val_main_v17 (F := Ideal) a3 a7 := by
  read_after hostOps0; rfl
/-- The transposed projection, and the bias reshaped to a row. -/
theorem W1_v18 : W1 m ρ c (Proc.devRef .tc main_v18) = val_main_v18 (F := Ideal) a4 := by
  read_after hostOps0; rfl
theorem W1_v19 : W1 m ρ c (Proc.devRef .tc main_v19) = shapeCast S1x32 a5 shapeCasts_S32_S1x32 := by
  read_after hostOps0; rfl

/-! ## After the first tiled stage -/

/-- The first stage's output array is the plain program's concatenated features. -/
theorem W2_v20 : W2 m ρ c (Proc.devRef .tc main_v20) = val_main_v23 (F := Ideal) a0 a2 a3 a4 a5 a6 a7 := by
  refine (W2_arr m ρ c 5).trans ?_
  rw [Cert.KernelIdeal.Hand0.region0_array, Cert.Sage.Ref.feat_stage]
  dsimp only [V1]
  rw [W1_arg0, W1_v10, W1_v17, W1_v18, W1_v19]
  exact congrArg (Cert.Sage.feat _ _ _ _) (Cert.Lib.row_reshape_eq_bcast _ _ _)

/-- The stage writes its output array only: every other buffer is as the stage found it. -/
theorem W2_v1 : W2 m ρ c (Proc.devRef .tc main_v1) = val_main_v1 (F := Ideal) a1 :=
  (W2_of_ne m ρ c main_v1 (by decide)).trans (W1_v1 m ρ c)
theorem W2_v3 : W2 m ρ c (Proc.devRef .tc main_v3) = val_main_v3 (F := Ideal) a1 :=
  (W2_of_ne m ρ c main_v3 (by decide)).trans (W1_v3 m ρ c)
theorem W2_arg (b : Ref sig .tc) (hb : b ∈ lateArgs) : W2 m ρ c (Proc.devRef .tc b) = m ((c : Thread nD τ).loc b) := by
  refine (W2_of_ne m ρ c b ?_).trans (W1_arg m ρ c b hb)
  simp only [lateArgs, List.mem_cons, List.mem_singleton, List.not_mem_nil, or_false] at hb
  rcases hb with rfl | rfl | rfl | rfl | rfl | rfl | rfl | rfl <;> decide

/-! ## After the second stretch of host operations -/

theorem W3_arg (b : Ref sig .tc) (hb : b ∈ lateArgs) : W3 m ρ c (Proc.devRef .tc b) = m ((c : Thread nD τ).loc b) := by
  have h2 := W2_arg m ρ c b hb
  simp only [lateArgs, List.mem_cons, List.mem_singleton, List.not_mem_nil, or_false] at hb
  rcases hb with rfl | rfl | rfl | rfl | rfl | rfl | rfl | rfl <;> (read_after hostOps1; exact h2)

/-- The first segment sum, of the features gathered at the edge sources. -/
theorem W3_v39 : W3 m ρ c (Proc.devRef .tc main_v39) = val_main_v33 (F := Ideal) a0 a1 a2 a3 a4 a5 a6 a7 := by
  read_after hostOps1
  rw [W2_v3, W2_v20, W2_v1]
  rfl
/-- The per-row factor. -/
theorem W3_v29 : W3 m ρ c (Proc.devRef .tc main_v29) = invCol a1 := by
  read_after hostOps1
  rw [W2_v3]
  rfl
theorem W3_v20 : W3 m ρ c (Proc.devRef .tc main_v20) = val_main_v23 (F := Ideal) a0 a2 a3 a4 a5 a6 a7 := by
  read_after hostOps1
  exact W2_v20 m ρ c
/-- The first layer's transposed weights, and its bias reshaped to a row. -/
theorem W3_v40 : W3 m ρ c (Proc.devRef .tc main_v40) = val_main_v43 (F := Ideal) a8 := by
  read_after hostOps1
  rw [W2_arg m ρ c main_arg8 (by decide)]
  rfl
theorem W3_v41 : W3 m ρ c (Proc.devRef .tc main_v41) = val_main_v48 (F := Ideal) a10 := by
  read_after hostOps1
  rw [W2_arg m ρ c main_arg10 (by decide)]
  rfl
theorem W3_v42 : W3 m ρ c (Proc.devRef .tc main_v42) = shapeCast S1x16 a9 shapeCasts_S16_S1x16 := by
  read_after hostOps1
  rw [W2_arg m ρ c main_arg9 (by decide)]
  rfl
theorem W3_v1 : W3 m ρ c (Proc.devRef .tc main_v1) = val_main_v1 (F := Ideal) a1 := by
  read_after hostOps1
  exact W2_v1 m ρ c
theorem W3_v3 : W3 m ρ c (Proc.devRef .tc main_v3) = val_main_v3 (F := Ideal) a1 := by
  read_after hostOps1
  exact W2_v3 m ρ c

/-! ## After the second tiled stage -/

/-- The second stage's output array is the plain program's first layer: its mean, formed with the reciprocal of the
    count made at least one, is the quotient mean. -/
theorem W4_v43 : W4 m ρ c (Proc.devRef .tc main_v43)
    = val_main_v51 (F := Ideal) a0 a1 a2 a3 a4 a5 a6 a7 a8 a9 a10 := by
  refine (W4_arr m ρ c 6).trans ?_
  rw [Cert.KernelIdeal.Hand1.region1_array, Cert.Sage.Ref.layer1_stage, Cert.Sage.Ref.mean1_stage]
  dsimp only [V3]
  rw [W3_v39, W3_v29, W3_v20, W3_v40, W3_v42, W3_v41]
  have hmean : Cert.Sage.meanMul64 (val_main_v33 (F := Ideal) a0 a1 a2 a3 a4 a5 a6 a7) (invCol a1)
      = Cert.Sage.meanDiv64 (val_main_v33 (F := Ideal) a0 a1 a2 a3 a4 a5 a6 a7) (val_main_v40 (F := Ideal) a1) :=
    Cert.Lib.scaled_rows_eq_quot _ (val_main_v37 (F := Ideal) a1) (val_main_v38 (F := Ideal)) _
      (fun i => Cert.Lib.ofBits_one_f32) (fun i => Cert.Lib.ofBits_one_f32) _ _ _
  rw [hmean, Cert.Lib.row_reshape_eq_bcast _ shapeCasts_S16_S1x16 Cert.ReferenceIdeal.Facts₀.bcast_S16_S1x16_1]
  rfl

theorem W4_v1 : W4 m ρ c (Proc.devRef .tc main_v1) = val_main_v1 (F := Ideal) a1 :=
  (W4_of_ne m ρ c main_v1 (by decide)).trans (W3_v1 m ρ c)
theorem W4_v3 : W4 m ρ c (Proc.devRef .tc main_v3) = val_main_v3 (F := Ideal) a1 :=
  (W4_of_ne m ρ c main_v3 (by decide)).trans (W3_v3 m ρ c)
theorem W4_arg (b : Ref sig .tc) (hb : b ∈ lateArgs) : W4 m ρ c (Proc.devRef .tc b) = m ((c : Thread nD τ).loc b) := by
  refine (W4_of_ne m ρ c b ?_).trans (W3_arg m ρ c b hb)
  simp only [lateArgs, List.mem_cons, List.mem_singleton, List.not_mem_nil, or_false] at hb
  rcases hb with rfl | rfl | rfl | rfl | rfl | rfl | rfl | rfl <;> decide
/-- The per-row factor is an input of the second stage, which leaves it as it found it. -/
theorem W4_v29 : W4 m ρ c (Proc.devRef .tc main_v29) = invCol a1 :=
  (W4_arr m ρ c 1).trans ((((dat1 (V3 m ρ) c).arrAt_in 1 rfl _).trans (A_eq1 (V3 m ρ) c 1)).trans (W3_v29 m ρ c))

/-! ## After the third stretch of host operations -/

/-- The second segment sum, of the first layer's output gathered at the edge sources. -/
theorem W5_v53 : W5 m ρ c (Proc.devRef .tc main_v53)
    = val_main_v61 (F := Ideal) a0 a1 a2 a3 a4 a5 a6 a7 a8 a9 a10 := by
  read_after hostOps2
  rw [W4_v3, W4_v43, W4_v1]
  rfl
theorem W5_v29 : W5 m ρ c (Proc.devRef .tc main_v29) = invCol a1 := by
  read_after hostOps2
  exact W4_v29 m ρ c
theorem W5_v43 : W5 m ρ c (Proc.devRef .tc main_v43)
    = val_main_v51 (F := Ideal) a0 a1 a2 a3 a4 a5 a6 a7 a8 a9 a10 := by
  read_after hostOps2
  exact W4_v43 m ρ c
/-- The second layer's transposed weights, its bias reshaped to a row, the final map's column and its bias. -/
theorem W5_v54 : W5 m ρ c (Proc.devRef .tc main_v54) = val_main_v71 (F := Ideal) a11 := by
  read_after hostOps2
  rw [W4_arg m ρ c main_arg11 (by decide)]
  rfl
theorem W5_v55 : W5 m ρ c (Proc.devRef .tc main_v55) = val_main_v76 (F := Ideal) a13 := by
  read_after hostOps2
  rw [W4_arg m ρ c main_arg13 (by decide)]
  rfl
theorem W5_v56 : W5 m ρ c (Proc.devRef .tc main_v56) = shapeCast S1x32 a12 shapeCasts_S32_S1x32 := by
  read_after hostOps2
  rw [W4_arg m ρ c main_arg12 (by decide)]
  rfl
theorem W5_v57 : W5 m ρ c (Proc.devRef .tc main_v57) = val_main_v80 (F := Ideal) a14 := by
  read_after hostOps2
  rw [W4_arg m ρ c main_arg14 (by decide)]
  rfl
theorem W5_v58 : W5 m ρ c (Proc.devRef .tc main_v58) = shapeCast S1x1 a15 shapeCasts_S1_S1x1 := by
  read_after hostOps2
  rw [W4_arg m ρ c main_arg15 (by decide)]
  rfl

/-! ## After the third tiled stage: the result -/

/-- THE RESULT: the tiled program's result array holds the plain program's result term of the launch arguments. -/
theorem result_eq : W6 m ρ c (Proc.devRef .tc main_v59)
    = val_main_v84 (F := Ideal) a0 a1 a2 a3 a4 a5 a6 a7 a8 a9 a10 a11 a12 a13 a14 a15 := by
  refine (W6_arr m ρ c 8).trans ?_
  rw [Cert.KernelIdeal.Hand2.region2_array, Cert.Sage.Ref.layer2_stage, Cert.Sage.Ref.mean2_stage]
  dsimp only [V5]
  rw [W5_v53, W5_v29, W5_v43, W5_v54, W5_v56, W5_v55, W5_v57, W5_v58]
  have hmean : Cert.Sage.meanMul16 (val_main_v61 (F := Ideal) a0 a1 a2 a3 a4 a5 a6 a7 a8 a9 a10) (invCol a1)
      = Cert.Sage.meanDiv16 (val_main_v61 (F := Ideal) a0 a1 a2 a3 a4 a5 a6 a7 a8 a9 a10)
          (val_main_v68 (F := Ideal) a1) :=
    Cert.Lib.scaled_rows_eq_quot _ (val_main_v65 (F := Ideal) a1) (val_main_v66 (F := Ideal)) _
      (fun i => Cert.Lib.ofBits_one_f32) (fun i => Cert.Lib.ofBits_one_f32) _ _ _
  rw [hmean, Cert.Lib.row_reshape_eq_bcast _ shapeCasts_S32_S1x32 Cert.ReferenceIdeal.Facts₀.bcast_S32_S1x32_1]
  exact congrArg (Cert.Sage.layer2 _ _ _ _ _ _) (Cert.Lib.row_reshape_eq_bcast _ _ _)

end Cert.KernelIdeal.Chain

end
-- ==== Proof.lean ====
/-
  A three-stage graph network, tiled against plain.

  Both programs compute, for 50000 nodes and 800000 edges: 64 features per node (a projection of the input features
  beside two embedding rows looked up by index); two aggregation layers, each max (mean · Wl + b + h · Wr) 0 with
  mean the per-target average of the source rows over the edges (a gather and a segment sum, the divisor the edge
  count made at least one); and a final linear map to one number per node. The plain program does all of it with host
  operations. The tiled program does the gathers and segment sums with the SAME host operations and the three dense
  stages in row blocks of 5000 nodes, and forms the mean as sum · (1 / max count 1) with the reciprocal computed once.

  At the ideal values the two results are one array:
    * each tiled stage leaves, block by block, the dense stage of Cert.Sage of the arrays it found (the stage
      modules): a matrix unit's product of narrowed operands into zeros is the textbook sum, as the host's is;
    * between the stages both programs apply the same gather and segment sum to equal arrays (the chain module);
    * sum · (1 / n) = sum / n on the extended reals whenever n ≠ 0, and max count 1 ≥ 1 (the mean law);
  so the inputs' finiteness is never used. The three frames are the generated ones (the plain program's is its run with
  the result dropped); the idealization rewrote nothing, so preserves is trivial.
-/
import proofs.«137122_j57741540328069_1_alg».proof.Defs
import proofs.«137122_j57741540328069_1_alg».proof.Proof.Gen.Kernel
import proofs.«137122_j57741540328069_1_alg».proof.Proof.Gen.Kernel.Skeleton
import proofs.«137122_j57741540328069_1_alg».proof.Proof.Gen.Kernel.Launch
import proofs.«137122_j57741540328069_1_alg».proof.Proof.Gen.Kernel.Points
import proofs.«137122_j57741540328069_1_alg».proof.Proof.Gen.Kernel.Frame
import proofs.«137122_j57741540328069_1_alg».proof.Proof.Gen.KernelIdeal
import proofs.«137122_j57741540328069_1_alg».proof.Proof.Gen.KernelIdeal.Skeleton
import proofs.«137122_j57741540328069_1_alg».proof.Proof.Gen.KernelIdeal.Launch
import proofs.«137122_j57741540328069_1_alg».proof.Proof.Gen.KernelIdeal.Points
import proofs.«137122_j57741540328069_1_alg».proof.Proof.Gen.KernelIdeal.Frame
import proofs.«137122_j57741540328069_1_alg».proof.Proof.Gen.ReferenceIdeal
import proofs.«137122_j57741540328069_1_alg».proof.Proof.Gen.ReferenceIdeal.Run
import proofs.«137122_j57741540328069_1_alg».proof.Proof.Gen.ReferenceIdeal.Read
import proofs.«137122_j57741540328069_1_alg».proof.Proof.Gen.Pre_finite_inputs
import proofs.«137122_j57741540328069_1_alg».proof.Proof.KernelRun
import proofs.«137122_j57741540328069_1_alg».proof.Proof.KChain
import Idealize.ShloMosaic.Adequacy
import Idealize.ShloMosaic.Init

noncomputable section

namespace Cert.Proof

open Idealize.ShloMosaic Idealize.SL.Sem

/-- The tiled program, word level and idealized: every fair execution ends, nothing faults, the arguments are kept. -/
theorem frame_k : Cert.frame_Kernel := fun m ρ _ => Cert.Kernel.Gen.frame m ρ
theorem frame_ki : Cert.frame_KernelIdeal := fun m ρ _ => Cert.KernelIdeal.Gen.frame m ρ
/-- The plain program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the sixteen arguments, the tiled program's result array (the last boundary's contents,
    read back stage by stage to the plain program's result term) is the plain program's. -/
theorem algebraic : Cert.algebraic_KernelIdeal_ReferenceIdeal := by
  intro m ρ m' ρ' _ hagree
  refine ⟨fun c => Cert.KernelIdeal.Gen.W6 m ρ c (Proc.devRef .tc Cert.KernelIdeal.main_v59),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W6 m ρ c (Proc.devRef .tc Cert.KernelIdeal.main_v59)
  rw [Cert.ReferenceIdeal.Read.val_main_v84_eq, Cert.KernelIdeal.Chain.result_eq]
  obtain ⟨e0, e1, e2, e3, e4, e5, e6, e7, e8, e9, e10, e11, e12, e13, e14, e15⟩ := hagree c
  rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
